-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part2 {F : FTy → Type} [FloatOps F] (main_arg13 : FVec F S32 .f32) (main_arg14 : FVec F S32x32 .f32) (main_arg15 : FVec F S32 .f32) (main_v33 : IVec S_ 1) : IVec S_ 1 :=
  let main_v34 : FVec F S32 .f32 := Host.absf main_arg13
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg14
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg15
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  main_v48

def fn_part1 {F : FTy → Type} [FloatOps F] (main_arg10 : FVec F S128x64 .f32) (main_arg11 : FVec F S64 .f32) (main_arg12 : FVec F S64x32 .f32) (main_arg13 : FVec F S32 .f32) (main_arg14 : FVec F S32x32 .f32) (main_arg15 : FVec F S32 .f32) (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  let main_v19 : FVec F S128x64 .f32 := Host.absf main_arg10
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg11
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg12
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg13 main_arg14 main_arg15 main_v33

def fn {F : FTy → Type} [FloatOps F] (main_arg0 : FVec F S100000x128 .f32) (main_arg1 : IVec S1600000 32) (main_arg2 : IVec S1600000 32) (main_arg3 : FVec F S1600000 .f32) (main_arg4 : IVec S1600000 32) (main_arg5 : IVec S1600000 32) (main_arg6 : FVec F S1600000 .f32) (main_arg7 : IVec S1600000 32) (main_arg8 : IVec S1600000 32) (main_arg9 : FVec F S1600000 .f32) (main_arg10 : FVec F S128x64 .f32) (main_arg11 : FVec F S64 .f32) (main_arg12 : FVec F S64x32 .f32) (main_arg13 : FVec F S32 .f32) (main_arg14 : FVec F S32x32 .f32) (main_arg15 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S1600000 .f32 := Host.absf main_arg6
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S1600000 .f32 := Host.absf main_arg9
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_arg10 main_arg11 main_arg12 main_arg13 main_arg14 main_arg15 main_v13 main_v16
-- ==== Kernel.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩
abbrev S100000x32 : Shape := ⟨2, ![100000, 32]⟩
abbrev S1600000x32 : Shape := ⟨2, ![1600000, 32]⟩
abbrev S1x32 : Shape := ⟨2, ![1, 32]⟩
abbrev S10000x128 : Shape := ⟨2, ![10000, 128]⟩
abbrev S10000x64 : Shape := ⟨2, ![10000, 64]⟩
abbrev S5000x64 : Shape := ⟨2, ![5000, 64]⟩
abbrev S5000x1 : Shape := ⟨2, ![5000, 1]⟩
abbrev S10000x32 : Shape := ⟨2, ![10000, 32]⟩
abbrev S5000x32 : Shape := ⟨2, ![5000, 32]⟩

abbrev nBuf : Space → Nat
  | .hbm => 183
  | .vmem => 32
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S1600000, .f32⟩
  | 4 => ⟨S1600000, .i32⟩
  | 5 => ⟨S1600000, .i32⟩
  | 6 => ⟨S1600000, .f32⟩
  | 7 => ⟨S1600000, .i32⟩
  | 8 => ⟨S1600000, .i32⟩
  | 9 => ⟨S1600000, .f32⟩
  | 10 => ⟨S128x64, .f32⟩
  | 11 => ⟨S64, .f32⟩
  | 12 => ⟨S64x32, .f32⟩
  | 13 => ⟨S32, .f32⟩
  | 14 => ⟨S32x32, .f32⟩
  | 15 => ⟨S32, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S1600000x1, .i32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .f32⟩
  | 44 => ⟨S1600000, .f32⟩
  | 45 => ⟨S1600000, .f32⟩
  | 46 => ⟨S1600000, .f32⟩
  | 47 => ⟨S1600000, .f32⟩
  | 48 => ⟨S_, .f32⟩
  | 49 => ⟨S100000, .f32⟩
  | 50 => ⟨S1600000x1, .i32⟩
  | 51 => ⟨S100000, .f32⟩
  | 52 => ⟨S_, .f32⟩
  | 53 => ⟨S100000, .f32⟩
  | 54 => ⟨S1600000x1, .i32⟩
  | 55 => ⟨S100000, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000, .f32⟩
  | 74 => ⟨S1600000, .f32⟩
  | 75 => ⟨S_, .f32⟩
  | 76 => ⟨S1600000, .f32⟩
  | 77 => ⟨S1600000, .f32⟩
  | 78 => ⟨S1600000, .f32⟩
  | 79 => ⟨S1600000, .f32⟩
  | 80 => ⟨S_, .f32⟩
  | 81 => ⟨S100000, .f32⟩
  | 82 => ⟨S1600000x1, .i32⟩
  | 83 => ⟨S100000, .f32⟩
  | 84 => ⟨S_, .f32⟩
  | 85 => ⟨S100000, .f32⟩
  | 86 => ⟨S1600000x1, .i32⟩
  | 87 => ⟨S100000, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000, .f32⟩
  | 106 => ⟨S1600000, .f32⟩
  | 107 => ⟨S_, .f32⟩
  | 108 => ⟨S1600000, .f32⟩
  | 109 => ⟨S1600000, .f32⟩
  | 110 => ⟨S1600000, .f32⟩
  | 111 => ⟨S1600000, .f32⟩
  | 112 => ⟨S_, .f32⟩
  | 113 => ⟨S100000, .f32⟩
  | 114 => ⟨S1600000x1, .i32⟩
  | 115 => ⟨S100000, .f32⟩
  | 116 => ⟨S100000x64, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x64, .f32⟩
  | 126 => ⟨S1600000x1, .f32⟩
  | 127 => ⟨S1600000x64, .f32⟩
  | _ => ⟨S100000x128, .f32⟩

abbrev hbmTy0_1 (i : Nat) : BufTy := match i % 128 with
  | 0 => ⟨S1600000x64, .f32⟩
  | 1 => ⟨S_, .f32⟩
  | 2 => ⟨S100000x64, .f32⟩
  | 3 => ⟨S1600000x1, .i32⟩
  | 4 => ⟨S100000x64, .f32⟩
  | 5 => ⟨S100000x1, .f32⟩
  | 6 => ⟨S1x64, .f32⟩
  | 7 => ⟨S100000x64, .f32⟩
  | 8 => ⟨S_, .f32⟩
  | 9 => ⟨S100000, .f32⟩
  | 10 => ⟨S1600000x1, .i32⟩
  | 11 => ⟨S100000, .f32⟩
  | 12 => ⟨S100000x32, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x32, .f32⟩
  | 22 => ⟨S1600000x1, .f32⟩
  | 23 => ⟨S1600000x32, .f32⟩
  | 24 => ⟨S1600000x32, .f32⟩
  | 25 => ⟨S_, .f32⟩
  | 26 => ⟨S100000x32, .f32⟩
  | 27 => ⟨S1600000x1, .i32⟩
  | 28 => ⟨S100000x32, .f32⟩
  | 29 => ⟨S100000x1, .f32⟩
  | 30 => ⟨S1x32, .f32⟩
  | 31 => ⟨S100000x32, .f32⟩
  | 32 => ⟨S_, .f32⟩
  | 33 => ⟨S100000, .f32⟩
  | 34 => ⟨S1600000x1, .i32⟩
  | 35 => ⟨S100000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x32, .f32⟩
  | 45 => ⟨S1600000x1, .f32⟩
  | 46 => ⟨S1600000x32, .f32⟩
  | 47 => ⟨S1600000x32, .f32⟩
  | 48 => ⟨S_, .f32⟩
  | 49 => ⟨S100000x32, .f32⟩
  | 50 => ⟨S1600000x1, .i32⟩
  | 51 => ⟨S100000x32, .f32⟩
  | 52 => ⟨S100000x1, .f32⟩
  | 53 => ⟨S1x32, .f32⟩
  | 54 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S5000x64, .f32⟩
  | .local _ .vmem, ⟨6, _⟩ => ⟨S5000x64, .f32⟩
  | .local _ .vmem, ⟨7, _⟩ => ⟨S5000x1, .f32⟩
  | .local _ .vmem, ⟨8, _⟩ => ⟨S5000x1, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S10000x64, .f32⟩
  | .local _ .vmem, ⟨13, _⟩ => ⟨S10000x64, .f32⟩
  | .local _ .vmem, ⟨14, _⟩ => ⟨S64x32, .f32⟩
  | .local _ .vmem, ⟨15, _⟩ => ⟨S10000x32, .f32⟩
  | .local _ .vmem, ⟨16, _⟩ => ⟨S10000x32, .f32⟩
  | .local _ .vmem, ⟨17, _⟩ => ⟨S5000x32, .f32⟩
  | .local _ .vmem, ⟨18, _⟩ => ⟨S5000x32, .f32⟩
  | .local _ .vmem, ⟨19, _⟩ => ⟨S5000x1, .f32⟩
  | .local _ .vmem, ⟨20, _⟩ => ⟨S5000x1, .f32⟩
  | .local _ .vmem, ⟨21, _⟩ => ⟨S1x32, .f32⟩
  | .local _ .vmem, ⟨22, _⟩ => ⟨S5000x32, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | .local _ .vmem, ⟨26, _⟩ => ⟨S32x32, .f32⟩
  | .local _ .vmem, ⟨27, _⟩ => ⟨S5000x1, .f32⟩
  | .local _ .vmem, ⟨28, _⟩ => ⟨S5000x1, .f32⟩
  | .local _ .vmem, ⟨29, _⟩ => ⟨S1x32, .f32⟩
  | .local _ .vmem, ⟨30, _⟩ => ⟨S5000x32, .f32⟩
  | .local _ .vmem, ⟨31, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_cst_0 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c : Ref sig .tc := ⟨.hbm, 24, rfl⟩
abbrev main_call0_v6 : Ref sig .tc := ⟨.hbm, 25, rfl⟩
abbrev main_call0_v7 : Ref sig .tc := ⟨.hbm, 26, rfl⟩
abbrev main_call0_c_1 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_c_2 : Ref sig .tc := ⟨.hbm, 33, rfl⟩
abbrev main_call0_v13 : Ref sig .tc := ⟨.hbm, 34, rfl⟩
abbrev main_call0_v14 : Ref sig .tc := ⟨.hbm, 35, rfl⟩
abbrev main_call0_c_3 : Ref sig .tc := ⟨.hbm, 36, rfl⟩
abbrev main_call0_v15 : Ref sig .tc := ⟨.hbm, 37, rfl⟩
abbrev main_call0_v16 : Ref sig .tc := ⟨.hbm, 38, rfl⟩
abbrev main_call0_v17 : Ref sig .tc := ⟨.hbm, 39, rfl⟩
abbrev main_call0_v18 : Ref sig .tc := ⟨.hbm, 40, rfl⟩
abbrev main_call0_v19 : Ref sig .tc := ⟨.hbm, 41, rfl⟩
abbrev main_call0_v20 : Ref sig .tc := ⟨.hbm, 42, rfl⟩
abbrev main_call0_cst_4 : Ref sig .tc := ⟨.hbm, 43, rfl⟩
abbrev main_call0_v21 : Ref sig .tc := ⟨.hbm, 44, rfl⟩
abbrev main_call0_v22 : Ref sig .tc := ⟨.hbm, 45, rfl⟩
abbrev main_call0_v23 : Ref sig .tc := ⟨.hbm, 46, rfl⟩
abbrev main_call0_v24 : Ref sig .tc := ⟨.hbm, 47, rfl⟩
abbrev main_call0_cst_5 : Ref sig .tc := ⟨.hbm, 48, rfl⟩
abbrev main_call0_v25 : Ref sig .tc := ⟨.hbm, 49, rfl⟩
abbrev main_call0_v26 : Ref sig .tc := ⟨.hbm, 50, rfl⟩
abbrev main_call0_v27 : Ref sig .tc := ⟨.hbm, 51, rfl⟩
abbrev main_call0_cst_6 : Ref sig .tc := ⟨.hbm, 52, rfl⟩
abbrev main_call0_v28 : Ref sig .tc := ⟨.hbm, 53, rfl⟩
abbrev main_call0_v29 : Ref sig .tc := ⟨.hbm, 54, rfl⟩
abbrev main_call0_v30 : Ref sig .tc := ⟨.hbm, 55, rfl⟩
abbrev main_call0_c_7 : Ref sig .tc := ⟨.hbm, 56, rfl⟩
abbrev main_call0_v31 : Ref sig .tc := ⟨.hbm, 57, rfl⟩
abbrev main_call0_v32 : Ref sig .tc := ⟨.hbm, 58, rfl⟩
abbrev main_call0_c_8 : Ref sig .tc := ⟨.hbm, 59, rfl⟩
abbrev main_call0_v33 : Ref sig .tc := ⟨.hbm, 60, rfl⟩
abbrev main_call0_v34 : Ref sig .tc := ⟨.hbm, 61, rfl⟩
abbrev main_call0_v35 : Ref sig .tc := ⟨.hbm, 62, rfl⟩
abbrev main_call0_v36 : Ref sig .tc := ⟨.hbm, 63, rfl⟩
abbrev main_call0_v37 : Ref sig .tc := ⟨.hbm, 64, rfl⟩
abbrev main_call0_c_9 : Ref sig .tc := ⟨.hbm, 65, rfl⟩
abbrev main_call0_v38 : Ref sig .tc := ⟨.hbm, 66, rfl⟩
abbrev main_call0_v39 : Ref sig .tc := ⟨.hbm, 67, rfl⟩
abbrev main_call0_c_10 : Ref sig .tc := ⟨.hbm, 68, rfl⟩
abbrev main_call0_v40 : Ref sig .tc := ⟨.hbm, 69, rfl⟩
abbrev main_call0_v41 : Ref sig .tc := ⟨.hbm, 70, rfl⟩
abbrev main_call0_v42 : Ref sig .tc := ⟨.hbm, 71, rfl⟩
abbrev main_call0_v43 : Ref sig .tc := ⟨.hbm, 72, rfl⟩
abbrev main_call0_v44 : Ref sig .tc := ⟨.hbm, 73, rfl⟩
abbrev main_call0_v45 : Ref sig .tc := ⟨.hbm, 74, rfl⟩
abbrev main_call0_cst_11 : Ref sig .tc := ⟨.hbm, 75, rfl⟩
abbrev main_call0_v46 : Ref sig .tc := ⟨.hbm, 76, rfl⟩
abbrev main_call0_v47 : Ref sig .tc := ⟨.hbm, 77, rfl⟩
abbrev main_call0_v48 : Ref sig .tc := ⟨.hbm, 78, rfl⟩
abbrev main_call0_v49 : Ref sig .tc := ⟨.hbm, 79, rfl⟩
abbrev main_call0_cst_12 : Ref sig .tc := ⟨.hbm, 80, rfl⟩
abbrev main_call0_v50 : Ref sig .tc := ⟨.hbm, 81, rfl⟩
abbrev main_call0_v51 : Ref sig .tc := ⟨.hbm, 82, rfl⟩
abbrev main_call0_v52 : Ref sig .tc := ⟨.hbm, 83, rfl⟩
abbrev main_call0_cst_13 : Ref sig .tc := ⟨.hbm, 84, rfl⟩
abbrev main_call0_v53 : Ref sig .tc := ⟨.hbm, 85, rfl⟩
abbrev main_call0_v54 : Ref sig .tc := ⟨.hbm, 86, rfl⟩
abbrev main_call0_v55 : Ref sig .tc := ⟨.hbm, 87, rfl⟩
abbrev main_call0_c_14 : Ref sig .tc := ⟨.hbm, 88, rfl⟩
abbrev main_call0_v56 : Ref sig .tc := ⟨.hbm, 89, rfl⟩
abbrev main_call0_v57 : Ref sig .tc := ⟨.hbm, 90, rfl⟩
abbrev main_call0_c_15 : Ref sig .tc := ⟨.hbm, 91, rfl⟩
abbrev main_call0_v58 : Ref sig .tc := ⟨.hbm, 92, rfl⟩
abbrev main_call0_v59 : Ref sig .tc := ⟨.hbm, 93, rfl⟩
abbrev main_call0_v60 : Ref sig .tc := ⟨.hbm, 94, rfl⟩
abbrev main_call0_v61 : Ref sig .tc := ⟨.hbm, 95, rfl⟩
abbrev main_call0_v62 : Ref sig .tc := ⟨.hbm, 96, rfl⟩
abbrev main_call0_c_16 : Ref sig .tc := ⟨.hbm, 97, rfl⟩
abbrev main_call0_v63 : Ref sig .tc := ⟨.hbm, 98, rfl⟩
abbrev main_call0_v64 : Ref sig .tc := ⟨.hbm, 99, rfl⟩
abbrev main_call0_c_17 : Ref sig .tc := ⟨.hbm, 100, rfl⟩
abbrev main_call0_v65 : Ref sig .tc := ⟨.hbm, 101, rfl⟩
abbrev main_call0_v66 : Ref sig .tc := ⟨.hbm, 102, rfl⟩
abbrev main_call0_v67 : Ref sig .tc := ⟨.hbm, 103, rfl⟩
abbrev main_call0_v68 : Ref sig .tc := ⟨.hbm, 104, rfl⟩
abbrev main_call0_v69 : Ref sig .tc := ⟨.hbm, 105, rfl⟩
abbrev main_call0_v70 : Ref sig .tc := ⟨.hbm, 106, rfl⟩
abbrev main_call0_cst_18 : Ref sig .tc := ⟨.hbm, 107, rfl⟩
abbrev main_call0_v71 : Ref sig .tc := ⟨.hbm, 108, rfl⟩
abbrev main_call0_v72 : Ref sig .tc := ⟨.hbm, 109, rfl⟩
abbrev main_call0_v73 : Ref sig .tc := ⟨.hbm, 110, rfl⟩
abbrev main_call0_v74 : Ref sig .tc := ⟨.hbm, 111, rfl⟩
abbrev main_call0_cst_19 : Ref sig .tc := ⟨.hbm, 112, rfl⟩
abbrev main_call0_v75 : Ref sig .tc := ⟨.hbm, 113, rfl⟩
abbrev main_call0_v76 : Ref sig .tc := ⟨.hbm, 114, rfl⟩
abbrev main_call0_v77 : Ref sig .tc := ⟨.hbm, 115, rfl⟩
abbrev main_call0_v78 : Ref sig .tc := ⟨.hbm, 116, rfl⟩
abbrev main_call0_c_20 : Ref sig .tc := ⟨.hbm, 117, rfl⟩
abbrev main_call0_v79 : Ref sig .tc := ⟨.hbm, 118, rfl⟩
abbrev main_call0_v80 : Ref sig .tc := ⟨.hbm, 119, rfl⟩
abbrev main_call0_c_21 : Ref sig .tc := ⟨.hbm, 120, rfl⟩
abbrev main_call0_v81 : Ref sig .tc := ⟨.hbm, 121, rfl⟩
abbrev main_call0_v82 : Ref sig .tc := ⟨.hbm, 122, rfl⟩
abbrev main_call0_v83 : Ref sig .tc := ⟨.hbm, 123, rfl⟩
abbrev main_call0_v84 : Ref sig .tc := ⟨.hbm, 124, rfl⟩
abbrev main_call0_v85 : Ref sig .tc := ⟨.hbm, 125, rfl⟩
abbrev main_call0_v86 : Ref sig .tc := ⟨.hbm, 126, rfl⟩
abbrev main_call0_v87 : Ref sig .tc := ⟨.hbm, 127, rfl⟩
abbrev main_call0_v88 : Ref sig .tc := ⟨.hbm, 128, rfl⟩
abbrev main_call0_cst_22 : Ref sig .tc := ⟨.hbm, 129, rfl⟩
abbrev main_call0_v89 : Ref sig .tc := ⟨.hbm, 130, rfl⟩
abbrev main_call0_v90 : Ref sig .tc := ⟨.hbm, 131, rfl⟩
abbrev main_call0_v91 : Ref sig .tc := ⟨.hbm, 132, rfl⟩
abbrev main_call0_v92 : Ref sig .tc := ⟨.hbm, 133, rfl⟩
abbrev main_call0_v93 : Ref sig .tc := ⟨.hbm, 134, rfl⟩
abbrev main_call0_v94 : Ref sig .tc := ⟨.hbm, 135, rfl⟩
abbrev main_call0_cst_23 : Ref sig .tc := ⟨.hbm, 136, rfl⟩
abbrev main_call0_v95 : Ref sig .tc := ⟨.hbm, 137, rfl⟩
abbrev main_call0_v96 : Ref sig .tc := ⟨.hbm, 138, rfl⟩
abbrev main_call0_v97 : Ref sig .tc := ⟨.hbm, 139, rfl⟩
abbrev main_call0_v98 : Ref sig .tc := ⟨.hbm, 140, rfl⟩
abbrev main_call0_c_24 : Ref sig .tc := ⟨.hbm, 141, rfl⟩
abbrev main_call0_v99 : Ref sig .tc := ⟨.hbm, 142, rfl⟩
abbrev main_call0_v100 : Ref sig .tc := ⟨.hbm, 143, rfl⟩
abbrev main_call0_c_25 : Ref sig .tc := ⟨.hbm, 144, rfl⟩
abbrev main_call0_v101 : Ref sig .tc := ⟨.hbm, 145, rfl⟩
abbrev main_call0_v102 : Ref sig .tc := ⟨.hbm, 146, rfl⟩
abbrev main_call0_v103 : Ref sig .tc := ⟨.hbm, 147, rfl⟩
abbrev main_call0_v104 : Ref sig .tc := ⟨.hbm, 148, rfl⟩
abbrev main_call0_v105 : Ref sig .tc := ⟨.hbm, 149, rfl⟩
abbrev main_call0_v106 : Ref sig .tc := ⟨.hbm, 150, rfl⟩
abbrev main_call0_v107 : Ref sig .tc := ⟨.hbm, 151, rfl⟩
abbrev main_call0_v108 : Ref sig .tc := ⟨.hbm, 152, rfl⟩
abbrev main_call0_cst_26 : Ref sig .tc := ⟨.hbm, 153, rfl⟩
abbrev main_call0_v109 : Ref sig .tc := ⟨.hbm, 154, rfl⟩
abbrev main_call0_v110 : Ref sig .tc := ⟨.hbm, 155, rfl⟩
abbrev main_call0_v111 : Ref sig .tc := ⟨.hbm, 156, rfl⟩
abbrev main_call0_v112 : Ref sig .tc := ⟨.hbm, 157, rfl⟩
abbrev main_call0_v113 : Ref sig .tc := ⟨.hbm, 158, rfl⟩
abbrev main_call0_v114 : Ref sig .tc := ⟨.hbm, 159, rfl⟩
abbrev main_call0_cst_27 : Ref sig .tc := ⟨.hbm, 160, rfl⟩
abbrev main_call0_v115 : Ref sig .tc := ⟨.hbm, 161, rfl⟩
abbrev main_call0_v116 : Ref sig .tc := ⟨.hbm, 162, rfl⟩
abbrev main_call0_v117 : Ref sig .tc := ⟨.hbm, 163, rfl⟩
abbrev main_call0_c_28 : Ref sig .tc := ⟨.hbm, 164, rfl⟩
abbrev main_call0_v118 : Ref sig .tc := ⟨.hbm, 165, rfl⟩
abbrev main_call0_v119 : Ref sig .tc := ⟨.hbm, 166, rfl⟩
abbrev main_call0_c_29 : Ref sig .tc := ⟨.hbm, 167, rfl⟩
abbrev main_call0_v120 : Ref sig .tc := ⟨.hbm, 168, rfl⟩
abbrev main_call0_v121 : Ref sig .tc := ⟨.hbm, 169, rfl⟩
abbrev main_call0_v122 : Ref sig .tc := ⟨.hbm, 170, rfl⟩
abbrev main_call0_v123 : Ref sig .tc := ⟨.hbm, 171, rfl⟩
abbrev main_call0_v124 : Ref sig .tc := ⟨.hbm, 172, rfl⟩
abbrev main_call0_v125 : Ref sig .tc := ⟨.hbm, 173, rfl⟩
abbrev main_call0_v126 : Ref sig .tc := ⟨.hbm, 174, rfl⟩
abbrev main_call0_v127 : Ref sig .tc := ⟨.hbm, 175, rfl⟩
abbrev main_call0_cst_30 : Ref sig .tc := ⟨.hbm, 176, rfl⟩
abbrev main_call0_v128 : Ref sig .tc := ⟨.hbm, 177, rfl⟩
abbrev main_call0_v129 : Ref sig .tc := ⟨.hbm, 178, rfl⟩
abbrev main_call0_v130 : Ref sig .tc := ⟨.hbm, 179, rfl⟩
abbrev main_call0_v131 : Ref sig .tc := ⟨.hbm, 180, rfl⟩
abbrev main_call0_v132 : Ref sig .tc := ⟨.hbm, 181, rfl⟩
abbrev main_v0 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc4_stg3_0 : Ref sig .tc := ⟨.vmem, 29, rfl⟩
abbrev cc4_stg4_0 : Ref sig .tc := ⟨.vmem, 30, rfl⟩
abbrev cc4_stg4_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc4_sem3_0 : DmaSem sig := 29
abbrev cc4_sem4_0 : DmaSem sig := 30
abbrev cc4_sem4_1 : DmaSem sig := 31

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x32 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S32_S1x32 : S32.ShapeCasts S1x32
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  broadcasts_S5000x1_S5000x32 : S5000x1.Broadcasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x32_S32x32_0_0 : ∀ a, (![0, 0] : Fin 2 → Nat) a + S32x32.size a ≤ S32x32.size a
  h_S32x32 : 0 < S32x32.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x128_S128x64_S10000x64_1_0_0_1_n_n_wf : DotDims.WF S10000x128 S128x64 S10000x64 [1] [0] [0] [1] [] []
  dot_S10000x64_S64x32_S10000x32_1_0_0_1_n_n_wf : DotDims.WF S10000x64 S64x32 S10000x32 [1] [0] [0] [1] [] []
  dot_S5000x32_S32x32_S5000x32_1_0_0_1_n_n_wf : DotDims.WF S5000x32 S32x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x32.size a ≤ S100000x32.size a
  hwx3_3 : ∀ i : grid3.Coords, EltTy.bits .f32 = 32 ∨ (Rect.block (s := S100000x32) S5000x32.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x32.size a ≤ S32x32.size a
  hwx4_1 : ∀ i : grid4.Coords, EltTy.bits .f32 = 32 ∨ (Rect.block (s := S32x32) S32x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x32.size a ≤ S1x32.size a
  hwx4_3 : ∀ i : grid4.Coords, EltTy.bits .f32 = 32 ∨ (Rect.block (s := S1x32) S1x32.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x32.size a ≤ S100000x32.size a
  hwx4_4 : ∀ i : grid4.Coords, EltTy.bits .f32 = 32 ∨ (Rect.block (s := S100000x32) S5000x32.size (cc4_transform_4 i) (hinb4_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg10) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v78) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v91) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v92) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v93) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v94) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_call0_v94) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg12) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v98) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_call0_v111) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v112) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v113) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v114) S5000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_call0_v130) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg14) S32x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_call0_v131) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_call0_v132) S1x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v0) S5000x32.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x32 : Shape := ⟨2, ![32, 32]⟩
abbrev S_ : Shape := ⟨0, ![]⟩
abbrev S100000 : Shape := ⟨1, ![100000]⟩
abbrev S1600000x1 : Shape := ⟨2, ![1600000, 1]⟩
abbrev S100000x64 : Shape := ⟨2, ![100000, 64]⟩
abbrev S1600000x64 : Shape := ⟨2, ![1600000, 64]⟩
abbrev S100000x1 : Shape := ⟨2, ![100000, 1]⟩
abbrev S1x64 : Shape := ⟨2, ![1, 64]⟩
abbrev S100000x32 : Shape := ⟨2, ![100000, 32]⟩
abbrev S1600000x32 : Shape := ⟨2, ![1600000, 32]⟩
abbrev S1x32 : Shape := ⟨2, ![1, 32]⟩

abbrev nBuf : Space → Nat
  | .hbm => 202
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S1600000, .f32⟩
  | 4 => ⟨S1600000, .i32⟩
  | 5 => ⟨S1600000, .i32⟩
  | 6 => ⟨S1600000, .f32⟩
  | 7 => ⟨S1600000, .i32⟩
  | 8 => ⟨S1600000, .i32⟩
  | 9 => ⟨S1600000, .f32⟩
  | 10 => ⟨S128x64, .f32⟩
  | 11 => ⟨S64, .f32⟩
  | 12 => ⟨S64x32, .f32⟩
  | 13 => ⟨S32, .f32⟩
  | 14 => ⟨S32x32, .f32⟩
  | 15 => ⟨S32, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S1600000x1, .i32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .f32⟩
  | 44 => ⟨S1600000, .f32⟩
  | 45 => ⟨S1600000, .f32⟩
  | 46 => ⟨S1600000, .f32⟩
  | 47 => ⟨S1600000, .f32⟩
  | 48 => ⟨S_, .f32⟩
  | 49 => ⟨S100000, .f32⟩
  | 50 => ⟨S1600000x1, .i32⟩
  | 51 => ⟨S100000, .f32⟩
  | 52 => ⟨S_, .f32⟩
  | 53 => ⟨S100000, .f32⟩
  | 54 => ⟨S1600000x1, .i32⟩
  | 55 => ⟨S100000, .f32⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000, .f32⟩
  | 74 => ⟨S1600000, .f32⟩
  | 75 => ⟨S_, .f32⟩
  | 76 => ⟨S1600000, .f32⟩
  | 77 => ⟨S1600000, .f32⟩
  | 78 => ⟨S1600000, .f32⟩
  | 79 => ⟨S1600000, .f32⟩
  | 80 => ⟨S_, .f32⟩
  | 81 => ⟨S100000, .f32⟩
  | 82 => ⟨S1600000x1, .i32⟩
  | 83 => ⟨S100000, .f32⟩
  | 84 => ⟨S_, .f32⟩
  | 85 => ⟨S100000, .f32⟩
  | 86 => ⟨S1600000x1, .i32⟩
  | 87 => ⟨S100000, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000, .f32⟩
  | 106 => ⟨S1600000, .f32⟩
  | 107 => ⟨S_, .f32⟩
  | 108 => ⟨S1600000, .f32⟩
  | 109 => ⟨S1600000, .f32⟩
  | 110 => ⟨S1600000, .f32⟩
  | 111 => ⟨S1600000, .f32⟩
  | 112 => ⟨S_, .f32⟩
  | 113 => ⟨S100000, .f32⟩
  | 114 => ⟨S1600000x1, .i32⟩
  | 115 => ⟨S100000, .f32⟩
  | 116 => ⟨S100000x64, .f32⟩
  | 117 => ⟨S_, .i32⟩
  | 118 => ⟨S1600000, .i32⟩
  | 119 => ⟨S1600000, .i1⟩
  | 120 => ⟨S_, .i32⟩
  | 121 => ⟨S1600000, .i32⟩
  | 122 => ⟨S1600000, .i32⟩
  | 123 => ⟨S1600000, .i32⟩
  | 124 => ⟨S1600000x1, .i32⟩
  | 125 => ⟨S1600000x64, .f32⟩
  | 126 => ⟨S1600000x1, .f32⟩
  | 127 => ⟨S1600000x64, .f32⟩
  | _ => ⟨S100000x128, .f32⟩

abbrev hbmTy0_1 (i : Nat) : BufTy := match i % 128 with
  | 0 => ⟨S1600000x64, .f32⟩
  | 1 => ⟨S_, .f32⟩
  | 2 => ⟨S100000x64, .f32⟩
  | 3 => ⟨S1600000x1, .i32⟩
  | 4 => ⟨S100000x64, .f32⟩
  | 5 => ⟨S_, .f32⟩
  | 6 => ⟨S100000, .f32⟩
  | 7 => ⟨S100000, .f32⟩
  | 8 => ⟨S100000x1, .f32⟩
  | 9 => ⟨S100000x64, .f32⟩
  | 10 => ⟨S100000x64, .f32⟩
  | 11 => ⟨S1x64, .f32⟩
  | 12 => ⟨S100000x64, .f32⟩
  | 13 => ⟨S100000x64, .f32⟩
  | 14 => ⟨S_, .f32⟩
  | 15 => ⟨S100000, .f32⟩
  | 16 => ⟨S1600000x1, .i32⟩
  | 17 => ⟨S100000, .f32⟩
  | 18 => ⟨S100000x32, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x32, .f32⟩
  | 28 => ⟨S1600000x1, .f32⟩
  | 29 => ⟨S1600000x32, .f32⟩
  | 30 => ⟨S1600000x32, .f32⟩
  | 31 => ⟨S_, .f32⟩
  | 32 => ⟨S100000x32, .f32⟩
  | 33 => ⟨S1600000x1, .i32⟩
  | 34 => ⟨S100000x32, .f32⟩
  | 35 => ⟨S_, .f32⟩
  | 36 => ⟨S100000, .f32⟩
  | 37 => ⟨S100000, .f32⟩
  | 38 => ⟨S100000x1, .f32⟩
  | 39 => ⟨S100000x32, .f32⟩
  | 40 => ⟨S100000x32, .f32⟩
  | 41 => ⟨S1x32, .f32⟩
  | 42 => ⟨S100000x32, .f32⟩
  | 43 => ⟨S100000x32, .f32⟩
  | 44 => ⟨S_, .f32⟩
  | 45 => ⟨S100000, .f32⟩
  | 46 => ⟨S1600000x1, .i32⟩
  | 47 => ⟨S100000, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x32, .f32⟩
  | 57 => ⟨S1600000x1, .f32⟩
  | 58 => ⟨S1600000x32, .f32⟩
  | 59 => ⟨S1600000x32, .f32⟩
  | 60 => ⟨S_, .f32⟩
  | 61 => ⟨S100000x32, .f32⟩
  | 62 => ⟨S1600000x1, .i32⟩
  | 63 => ⟨S100000x32, .f32⟩
  | 64 => ⟨S100000x32, .f32⟩
  | 65 => ⟨S_, .f32⟩
  | 66 => ⟨S100000, .f32⟩
  | 67 => ⟨S100000, .f32⟩
  | 68 => ⟨S100000x1, .f32⟩
  | 69 => ⟨S100000x32, .f32⟩
  | 70 => ⟨S100000x32, .f32⟩
  | 71 => ⟨S1x32, .f32⟩
  | 72 => ⟨S100000x32, .f32⟩
  | 73 => ⟨S100000x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_c : Ref sig .tc := ⟨.hbm, 24, rfl⟩
abbrev main_v6 : Ref sig .tc := ⟨.hbm, 25, rfl⟩
abbrev main_v7 : Ref sig .tc := ⟨.hbm, 26, rfl⟩
abbrev main_c_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_c_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_6 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_7 : Ref sig .tc := ⟨.hbm, 56, rfl⟩
abbrev main_v31 : Ref sig .tc := ⟨.hbm, 57, rfl⟩
abbrev main_v32 : Ref sig .tc := ⟨.hbm, 58, rfl⟩
abbrev main_c_8 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_9 : Ref sig .tc := ⟨.hbm, 65, rfl⟩
abbrev main_v38 : Ref sig .tc := ⟨.hbm, 66, rfl⟩
abbrev main_v39 : Ref sig .tc := ⟨.hbm, 67, rfl⟩
abbrev main_c_10 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_11 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_12 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_13 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_c_14 : Ref sig .tc := ⟨.hbm, 88, rfl⟩
abbrev main_v56 : Ref sig .tc := ⟨.hbm, 89, rfl⟩
abbrev main_v57 : Ref sig .tc := ⟨.hbm, 90, rfl⟩
abbrev main_c_15 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_c_16 : Ref sig .tc := ⟨.hbm, 97, rfl⟩
abbrev main_v63 : Ref sig .tc := ⟨.hbm, 98, rfl⟩
abbrev main_v64 : Ref sig .tc := ⟨.hbm, 99, rfl⟩
abbrev main_c_17 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_18 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_19 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_c_20 : Ref sig .tc := ⟨.hbm, 117, rfl⟩
abbrev main_v79 : Ref sig .tc := ⟨.hbm, 118, rfl⟩
abbrev main_v80 : Ref sig .tc := ⟨.hbm, 119, rfl⟩
abbrev main_c_21 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_22 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_cst_23 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_cst_24 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_c_25 : Ref sig .tc := ⟨.hbm, 147, rfl⟩
abbrev main_v104 : Ref sig .tc := ⟨.hbm, 148, rfl⟩
abbrev main_v105 : Ref sig .tc := ⟨.hbm, 149, rfl⟩
abbrev main_c_26 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_27 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_cst_28 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_cst_29 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_c_30 : Ref sig .tc := ⟨.hbm, 176, rfl⟩
abbrev main_v128 : Ref sig .tc := ⟨.hbm, 177, rfl⟩
abbrev main_v129 : Ref sig .tc := ⟨.hbm, 178, rfl⟩
abbrev main_c_31 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_cst_32 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_cst_33 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf

class Facts : Prop extends Facts₀ where

variable [Facts]
-- ==== Proof.EdgeStages.lean ====
/-
  The host side of the graph convolution on one edge set, stage by stage, as pure functions of whole arrays at the
  extended reals. For endpoints `s` (sources), `e` (destinations) and weights `w`:
  * `startCol s`: the column of gather start indices for endpoints `s`, a negative endpoint wrapped by the node count;
  * `degree e w`: the weighted degree of every node, the sum of `w` over the edges whose endpoint `e` is that node;
  * `edgeNorm s e w`: the symmetric normalisation `w / sqrt (max (outdeg s · indeg e) floor)`;
  * `aggregate h s e nw`: every node's sum, over the edges that end in it, of the source's feature row scaled by the
    edge's normalised weight.
-/
import proofs.«425108_j11218454577219_3_alg».proof.Proof.Gen.KernelIdeal
import Idealize.ShloMosaic.PureOps.Ideal

noncomputable section

namespace Cert.KernelIdeal.Stage

open Idealize.ShloMosaic Cert.KernelIdeal Cert.KernelIdeal.Facts₀

/-- Gather start indices for edge endpoints: a negative endpoint is wrapped by the node count, and the vector is laid
    out as a column. -/
def startCol (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- Weighted degree: the edge weights summed into their endpoints' nodes. -/
def degree (e : IVec S1600000 32) (w : FVec Ideal S1600000 .f32) : FVec Ideal S100000 .f32 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 e) w

/-- Edge weights divided by the square root of the floored product of the source's weighted out-degree and the
    destination's weighted in-degree. -/
def edgeNorm (s e : IVec S1600000 32) (w : FVec Ideal S1600000 .f32) : FVec Ideal S1600000 .f32 :=
  Host.divf w (Host.sqrt (maximumf
    (mulf (Host.gather gather_S100000_S1600000x1_S1600000_n_0_n_n_0_1_1 (degree s w) (startCol s))
      (Host.gather gather_S100000_S1600000x1_S1600000_n_0_n_n_0_1_1 (degree e w) (startCol e)))
    (broadcastInDim S1600000 ![] bcast_S_S1600000 (constant (F := Ideal) S_ .f32 0x2B8CBCCC#32))))

/-- Aggregation of 64-wide rows: the source rows, each scaled by its edge's weight, summed into the destinations. -/
def aggregate64 (h : FVec Ideal S100000x64 .f32) (s e : IVec S1600000 32) (nw : FVec Ideal S1600000 .f32) :
    FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 e)
    (mulf (Host.gather gather_S100000x64_S1600000x1_S1600000x64_1_0_n_n_0_1_164 h (startCol s))
      (broadcastInDim S1600000x64 ![0, 1] bcast_S1600000x1_S1600000x64_0_1
        (broadcastInDim S1600000x1 ![0] bcast_S1600000_S1600000x1_0 nw)))

/-- Aggregation of 32-wide rows. -/
def aggregate32 (h : FVec Ideal S100000x32 .f32) (s e : IVec S1600000 32) (nw : FVec Ideal S1600000 .f32) :
    FVec Ideal S100000x32 .f32 :=
  Host.scatterAdd scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0 e)
    (mulf (Host.gather gather_S100000x32_S1600000x1_S1600000x32_1_0_n_n_0_1_132 h (startCol s))
      (broadcastInDim S1600000x32 ![0, 1] bcast_S1600000x1_S1600000x32_0_1
        (broadcastInDim S1600000x1 ![0] bcast_S1600000_S1600000x1_0 nw)))

end Cert.KernelIdeal.Stage

end
-- ==== Proof.Layer.lean ====
/-
  One graph-convolution layer's two dense steps, as functions of whole arrays over the extended reals.

  * `matProd X W`: the plain matrix product, element `(a, b)` the sum over `k` of `X (a, k) * W (k, b)`.
  * `scaleShift A d r`: every row of `A` divided by that row's weighted in-degree, the degree floored at the
    single-precision word of 1e-12 so that an isolated node divides by the floor and not by zero, then the bias row
    added: element `(a, b)` is `A (a, b) / max (d (a, 0)) floor + r (0, b)`. The degree is a column `[N, 1]` and the
    bias a row `[1, D]`.
-/
import Idealize.ShloMosaic.PureOps.Ideal
import Idealize.ShloMosaic.Lib.ValueIdx

noncomputable section

open scoped BigOperators

namespace Cert.Layer

open Idealize.ShloMosaic Idealize.ShloMosaic.ValueIdx

/-- The floor under a degree: the extended real the single-precision word of 1e-12 denotes. -/
abbrev degFloor : EReal := Ideal.ofBits .f32 0x2B8CBCCC#32

/-- The plain matrix product of `X : [M, K]` and `W : [K, N]`. -/
def matProd {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (⟨(i 0).val, idx2_lt0 i⟩ : Fin M) k) * W (ix2 k (⟨(i 1).val, idx2_lt1 i⟩ : Fin N))

/-- The product at coordinates. -/
theorem matProd_apply {M K N : ℕ} (X : (⟨2, ![M, K]⟩ : Shape).Idx → EReal) (W : (⟨2, ![K, N]⟩ : Shape).Idx → EReal)
    (a : Fin M) (b : Fin N) : matProd X W (ix2 a b) = ∑ k : Fin K, X (ix2 a k) * W (ix2 k b) := rfl

/-- Rows divided by the floored degree column, the bias row added. -/
def scaleShift {N D : ℕ} (A : (⟨2, ![N, D]⟩ : Shape).Idx → EReal) (d : (⟨2, ![N, 1]⟩ : Shape).Idx → EReal)
    (r : (⟨2, ![1, D]⟩ : Shape).Idx → EReal) : (⟨2, ![N, D]⟩ : Shape).Idx → EReal :=
  fun i => Ideal.div (A i) (max (d (ix2 (⟨(i 0).val, idx2_lt0 i⟩ : Fin N) (0 : Fin 1))) degFloor)
    + r (ix2 (0 : Fin 1) (⟨(i 1).val, idx2_lt1 i⟩ : Fin D))

/-- The closing step at coordinates. -/
theorem scaleShift_apply {N D : ℕ} (A : (⟨2, ![N, D]⟩ : Shape).Idx → EReal) (d : (⟨2, ![N, 1]⟩ : Shape).Idx → EReal)
    (r : (⟨2, ![1, D]⟩ : Shape).Idx → EReal) (a : Fin N) (b : Fin D) :
    scaleShift A d r (ix2 a b) = Ideal.div (A (ix2 a b)) (max (d (ix2 a (0 : Fin 1))) degFloor) + r (ix2 (0 : Fin 1) b) := rfl

end Cert.Layer

end
-- ==== Proof.HostStages.lean ====
/-
  The kernel program's forward pass as one function of its sixteen arguments, over the edge stages and the layer's two
  dense steps. The kernel hands the closing step the weighted in-degree as a column `[N, 1]` and the bias as a row
  `[1, D]`: `column`, `row64`, `row32` are those re-layouts. The first two layers transform, aggregate, then close; the
  third aggregates, then transforms and closes in one step.
-/
import proofs.«425108_j11218454577219_3_alg».proof.Proof.EdgeStages
import proofs.«425108_j11218454577219_3_alg».proof.Proof.Layer

noncomputable section

namespace Cert.KernelIdeal.Stage

open Idealize.ShloMosaic Cert.KernelIdeal Cert.KernelIdeal.Facts₀

/-- A node vector as a column. -/
def column (d : FVec Ideal S100000 .f32) : FVec Ideal S100000x1 .f32 := shapeCast S100000x1 d shapeCasts_S100000_S100000x1

/-- A 64-wide bias as a row. -/
def row64 (b : FVec Ideal S64 .f32) : FVec Ideal S1x64 .f32 := shapeCast S1x64 b shapeCasts_S64_S1x64

/-- A 32-wide bias as a row. -/
def row32 (b : FVec Ideal S32 .f32) : FVec Ideal S1x32 .f32 := shapeCast S1x32 b shapeCasts_S32_S1x32

/-- The first layer's output: transform, aggregate, close. -/
def layer1 (x : FVec Ideal S100000x128 .f32) (s1 e1 : IVec S1600000 32) (w1 : FVec Ideal S1600000 .f32)
    (W1 : FVec Ideal S128x64 .f32) (b1 : FVec Ideal S64 .f32) : FVec Ideal S100000x64 .f32 :=
  Cert.Layer.scaleShift (aggregate64 (Cert.Layer.matProd x W1) s1 e1 (edgeNorm s1 e1 w1))
    (column (degree e1 (edgeNorm s1 e1 w1))) (row64 b1)

/-- The second layer's output from the first's. -/
def layer2 (h : FVec Ideal S100000x64 .f32) (s2 e2 : IVec S1600000 32) (w2 : FVec Ideal S1600000 .f32)
    (W2 : FVec Ideal S64x32 .f32) (b2 : FVec Ideal S32 .f32) : FVec Ideal S100000x32 .f32 :=
  Cert.Layer.scaleShift (aggregate32 (Cert.Layer.matProd h W2) s2 e2 (edgeNorm s2 e2 w2))
    (column (degree e2 (edgeNorm s2 e2 w2))) (row32 b2)

/-- The third layer's output from the second's: aggregate first, then transform and close. -/
def layer3 (h : FVec Ideal S100000x32 .f32) (s3 e3 : IVec S1600000 32) (w3 : FVec Ideal S1600000 .f32)
    (W3 : FVec Ideal S32x32 .f32) (b3 : FVec Ideal S32 .f32) : FVec Ideal S100000x32 .f32 :=
  Cert.Layer.scaleShift (Cert.Layer.matProd (aggregate32 h s3 e3 (edgeNorm s3 e3 w3)) W3)
    (column (degree e3 (edgeNorm s3 e3 w3))) (row32 b3)

/-- The three layers in turn. -/
def forward (x : FVec Ideal S100000x128 .f32) (s1 e1 : IVec S1600000 32) (w1 : FVec Ideal S1600000 .f32)
    (s2 e2 : IVec S1600000 32) (w2 : FVec Ideal S1600000 .f32) (s3 e3 : IVec S1600000 32) (w3 : FVec Ideal S1600000 .f32)
    (W1 : FVec Ideal S128x64 .f32) (b1 : FVec Ideal S64 .f32) (W2 : FVec Ideal S64x32 .f32) (b2 : FVec Ideal S32 .f32)
    (W3 : FVec Ideal S32x32 .f32) (b3 : FVec Ideal S32 .f32) : FVec Ideal S100000x32 .f32 :=
  layer3 (layer2 (layer1 x s1 e1 w1 W1 b1) s2 e2 w2 W2 b2) s3 e3 w3 W3 b3

end Cert.KernelIdeal.Stage

end
-- ==== Proof.HostWalk.lean ====
/-
  The host stretches between the dense steps, read back: what each stretch leaves in the buffers the next dense step
  or a later stretch reads, as the edge stages of what it found in the buffers it reads; and which buffers a stretch
  leaves alone. Every statement is over an arbitrary assignment `V` of contents to the buffers when the stretch is
  entered, the values it reads named by hypotheses.
-/
import proofs.«425108_j11218454577219_3_alg».proof.Proof.Gen.KernelIdeal.Frame
import proofs.«425108_j11218454577219_3_alg».proof.Proof.HostStages
import Idealize.ShloMosaic.Lib.StableHlo.Run

set_option maxRecDepth 16384

noncomputable section

namespace Cert.KernelIdeal.HostWalk

open Idealize.ShloMosaic Idealize.ShloMosaic.TcCoe Idealize.SL.Sem Idealize.ShloMosaic.StableHlo
open Cert.KernelIdeal Cert.KernelIdeal.Gen Cert.KernelIdeal.Stage

/-- After this stretch the aggregation buffer holds the aggregation of the transformed features along the edge set. -/
theorem s1_agg (V : Valuation τ sig (Elt Ideal)) {h : FVec Ideal S100000x64 .f32} {s e : IVec S1600000 32} {nw : FVec Ideal S1600000 .f32}
    (hh : V (Proc.devRef .tc main_call0_v78) = h) (hs : V (Proc.devRef .tc main_arg1) = s) (he : V (Proc.devRef .tc main_arg2) = e) (hnw : V (Proc.devRef .tc main_call0_v24) = nw) :
    StableHlo.after (hostOps1 (F := Ideal)) V (Proc.devRef .tc main_call0_v91) = aggregate64 h s e nw := by
  subst hh hs he hnw
  simp only [hostOps1]
  after_results_simp
  simp only [StableHlo.TRef.toBuf, StableHlo.TRef.ofBuf, cast_eq]
  unfold aggregate64 startCol
  rfl

/-- After this stretch the column buffer holds the degree vector laid out as a column. -/
theorem s1_col (V : Valuation τ sig (Elt Ideal)) {d : FVec Ideal S100000 .f32} (hd : V (Proc.devRef .tc main_call0_v77) = d) :
    StableHlo.after (hostOps1 (F := Ideal)) V (Proc.devRef .tc main_call0_v92) = column d := by
  subst hd
  simp only [hostOps1]
  after_results_simp
  unfold column
  rfl

/-- After this stretch the row buffer holds the bias laid out as a row. -/
theorem s1_row (V : Valuation τ sig (Elt Ideal)) {b : FVec Ideal S64 .f32} (hb : V (Proc.devRef .tc main_arg11) = b) :
    StableHlo.after (hostOps1 (F := Ideal)) V (Proc.devRef .tc main_call0_v93) = row64 b := by
  subst hb
  simp only [hostOps1]
  after_results_simp
  unfold row64
  rfl

/-- After the second stretch the degree buffer holds the second edge set's weighted in-degree. -/
theorem s2_deg (V : Valuation τ sig (Elt Ideal)) {e : IVec S1600000 32} {nw : FVec Ideal S1600000 .f32}
    (he : V (Proc.devRef .tc main_arg5) = e) (hnw : V (Proc.devRef .tc main_call0_v49) = nw) :
    StableHlo.after (hostOps2 (F := Ideal)) V (Proc.devRef .tc main_call0_v97) = degree e nw := by
  subst he hnw
  simp only [hostOps2]
  after_results_simp
  simp only [StableHlo.TRef.toBuf, StableHlo.TRef.ofBuf, cast_eq]
  unfold degree
  rfl

/-- After this stretch the aggregation buffer holds the aggregation of the transformed features along the edge set. -/
theorem s3_agg (V : Valuation τ sig (Elt Ideal)) {h : FVec Ideal S100000x32 .f32} {s e : IVec S1600000 32} {nw : FVec Ideal S1600000 .f32}
    (hh : V (Proc.devRef .tc main_call0_v98) = h) (hs : V (Proc.devRef .tc main_arg4) = s) (he : V (Proc.devRef .tc main_arg5) = e) (hnw : V (Proc.devRef .tc main_call0_v49) = nw) :
    StableHlo.after (hostOps3 (F := Ideal)) V (Proc.devRef .tc main_call0_v111) = aggregate32 h s e nw := by
  subst hh hs he hnw
  simp only [hostOps3]
  after_results_simp
  simp only [StableHlo.TRef.toBuf, StableHlo.TRef.ofBuf, cast_eq]
  unfold aggregate32 startCol
  rfl

/-- After this stretch the column buffer holds the degree vector laid out as a column. -/
theorem s3_col (V : Valuation τ sig (Elt Ideal)) {d : FVec Ideal S100000 .f32} (hd : V (Proc.devRef .tc main_call0_v97) = d) :
    StableHlo.after (hostOps3 (F := Ideal)) V (Proc.devRef .tc main_call0_v112) = column d := by
  subst hd
  simp only [hostOps3]
  after_results_simp
  unfold column
  rfl

/-- After this stretch the row buffer holds the bias laid out as a row. -/
theorem s3_row (V : Valuation τ sig (Elt Ideal)) {b : FVec Ideal S32 .f32} (hb : V (Proc.devRef .tc main_arg13) = b) :
    StableHlo.after (hostOps3 (F := Ideal)) V (Proc.devRef .tc main_call0_v113) = row32 b := by
  subst hb
  simp only [hostOps3]
  after_results_simp
  unfold row32
  rfl

/-- After this stretch the aggregation buffer holds the aggregation of the transformed features along the edge set. -/
theorem s4_agg (V : Valuation τ sig (Elt Ideal)) {h : FVec Ideal S100000x32 .f32} {s e : IVec S1600000 32} {nw : FVec Ideal S1600000 .f32}
    (hh : V (Proc.devRef .tc main_call0_v114) = h) (hs : V (Proc.devRef .tc main_arg7) = s) (he : V (Proc.devRef .tc main_arg8) = e) (hnw : V (Proc.devRef .tc main_call0_v74) = nw) :
    StableHlo.after (hostOps4 (F := Ideal)) V (Proc.devRef .tc main_call0_v130) = aggregate32 h s e nw := by
  subst hh hs he hnw
  simp only [hostOps4]
  after_results_simp
  simp only [StableHlo.TRef.toBuf, StableHlo.TRef.ofBuf, cast_eq]
  unfold aggregate32 startCol
  rfl

/-- After the last stretch the column buffer holds the third edge set's weighted in-degree laid out as a column. -/
theorem s4_col (V : Valuation τ sig (Elt Ideal)) {e : IVec S1600000 32} {nw : FVec Ideal S1600000 .f32}
    (he : V (Proc.devRef .tc main_arg8) = e) (hnw : V (Proc.devRef .tc main_call0_v74) = nw) :
    StableHlo.after (hostOps4 (F := Ideal)) V (Proc.devRef .tc main_call0_v131) = column (degree e nw) := by
  subst he hnw
  simp only [hostOps4]
  after_results_simp
  simp only [StableHlo.TRef.toBuf, StableHlo.TRef.ofBuf, cast_eq]
  unfold column degree
  rfl

/-- After this stretch the row buffer holds the bias laid out as a row. -/
theorem s4_row (V : Valuation τ sig (Elt Ideal)) {b : FVec Ideal S32 .f32} (hb : V (Proc.devRef .tc main_arg15) = b) :
    StableHlo.after (hostOps4 (F := Ideal)) V (Proc.devRef .tc main_call0_v132) = row32 b := by
  subst hb
  simp only [hostOps4]
  after_results_simp
  unfold row32
  rfl

/-- The buffers stretch 0 writes, in order. -/
abbrev written0 : List (Ref sig .tc) := [main_call0_cst, main_call0_v0, main_call0_v1, main_call0_v2, main_call0_cst_0, main_call0_v3, main_call0_v4, main_call0_v5, main_call0_c, main_call0_v6, main_call0_v7, main_call0_c_1, main_call0_v8, main_call0_v9, main_call0_v10, main_call0_v11, main_call0_v12, main_call0_c_2, main_call0_v13, main_call0_v14, main_call0_c_3, main_call0_v15, main_call0_v16, main_call0_v17, main_call0_v18, main_call0_v19, main_call0_v20, main_call0_cst_4, main_call0_v21, main_call0_v22, main_call0_v23, main_call0_v24, main_call0_cst_5, main_call0_v25, main_call0_v26, main_call0_v27, main_call0_cst_6, main_call0_v28, main_call0_v29, main_call0_v30, main_call0_c_7, main_call0_v31, main_call0_v32, main_call0_c_8, main_call0_v33, main_call0_v34, main_call0_v35, main_call0_v36, main_call0_v37, main_call0_c_9, main_call0_v38, main_call0_v39, main_call0_c_10, main_call0_v40, main_call0_v41, main_call0_v42, main_call0_v43, main_call0_v44, main_call0_v45, main_call0_cst_11, main_call0_v46, main_call0_v47, main_call0_v48, main_call0_v49, main_call0_cst_12, main_call0_v50, main_call0_v51, main_call0_v52, main_call0_cst_13, main_call0_v53, main_call0_v54, main_call0_v55, main_call0_c_14, main_call0_v56, main_call0_v57, main_call0_c_15, main_call0_v58, main_call0_v59, main_call0_v60, main_call0_v61, main_call0_v62, main_call0_c_16, main_call0_v63, main_call0_v64, main_call0_c_17, main_call0_v65, main_call0_v66, main_call0_v67, main_call0_v68, main_call0_v69, main_call0_v70, main_call0_cst_18, main_call0_v71, main_call0_v72, main_call0_v73, main_call0_v74, main_call0_cst_19, main_call0_v75, main_call0_v76, main_call0_v77]

set_option maxHeartbeats 4000000 in
/-- Every operation of stretch 0 writes only its own result buffer, which is in the list. -/
theorem hostOps0_writes : (hostOps0 (F := Ideal)).Forall fun op => op.writes ⊆ (written0.map (Proc.devRef (τ := τ) .tc)).toFinset := by
  simp only [hostOps0, List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A buffer stretch 0 does not write keeps its contents through it. -/
theorem keep0 (V : Valuation τ sig (Elt Ideal)) (b : Ref sig .tc) (h : b ∉ written0) :
    StableHlo.after (hostOps0 (F := Ideal)) V (Proc.devRef .tc b) = V (Proc.devRef .tc b) :=
  StableHlo.after_of_writes_sub hostOps0 V hostOps0_writes h

/-- The buffers stretch 1 writes, in order. -/
abbrev written1 : List (Ref sig .tc) := [main_call0_c_20, main_call0_v79, main_call0_v80, main_call0_c_21, main_call0_v81, main_call0_v82, main_call0_v83, main_call0_v84, main_call0_v85, main_call0_v86, main_call0_v87, main_call0_v88, main_call0_cst_22, main_call0_v89, main_call0_v90, main_call0_v91, main_call0_v92, main_call0_v93]

set_option maxHeartbeats 4000000 in
/-- Every operation of stretch 1 writes only its own result buffer, which is in the list. -/
theorem hostOps1_writes : (hostOps1 (F := Ideal)).Forall fun op => op.writes ⊆ (written1.map (Proc.devRef (τ := τ) .tc)).toFinset := by
  simp only [hostOps1, List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A buffer stretch 1 does not write keeps its contents through it. -/
theorem keep1 (V : Valuation τ sig (Elt Ideal)) (b : Ref sig .tc) (h : b ∉ written1) :
    StableHlo.after (hostOps1 (F := Ideal)) V (Proc.devRef .tc b) = V (Proc.devRef .tc b) :=
  StableHlo.after_of_writes_sub hostOps1 V hostOps1_writes h

/-- The buffers stretch 2 writes, in order. -/
abbrev written2 : List (Ref sig .tc) := [main_call0_cst_23, main_call0_v95, main_call0_v96, main_call0_v97]

set_option maxHeartbeats 4000000 in
/-- Every operation of stretch 2 writes only its own result buffer, which is in the list. -/
theorem hostOps2_writes : (hostOps2 (F := Ideal)).Forall fun op => op.writes ⊆ (written2.map (Proc.devRef (τ := τ) .tc)).toFinset := by
  simp only [hostOps2, List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A buffer stretch 2 does not write keeps its contents through it. -/
theorem keep2 (V : Valuation τ sig (Elt Ideal)) (b : Ref sig .tc) (h : b ∉ written2) :
    StableHlo.after (hostOps2 (F := Ideal)) V (Proc.devRef .tc b) = V (Proc.devRef .tc b) :=
  StableHlo.after_of_writes_sub hostOps2 V hostOps2_writes h

/-- The buffers stretch 3 writes, in order. -/
abbrev written3 : List (Ref sig .tc) := [main_call0_c_24, main_call0_v99, main_call0_v100, main_call0_c_25, main_call0_v101, main_call0_v102, main_call0_v103, main_call0_v104, main_call0_v105, main_call0_v106, main_call0_v107, main_call0_v108, main_call0_cst_26, main_call0_v109, main_call0_v110, main_call0_v111, main_call0_v112, main_call0_v113]

set_option maxHeartbeats 4000000 in
/-- Every operation of stretch 3 writes only its own result buffer, which is in the list. -/
theorem hostOps3_writes : (hostOps3 (F := Ideal)).Forall fun op => op.writes ⊆ (written3.map (Proc.devRef (τ := τ) .tc)).toFinset := by
  simp only [hostOps3, List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A buffer stretch 3 does not write keeps its contents through it. -/
theorem keep3 (V : Valuation τ sig (Elt Ideal)) (b : Ref sig .tc) (h : b ∉ written3) :
    StableHlo.after (hostOps3 (F := Ideal)) V (Proc.devRef .tc b) = V (Proc.devRef .tc b) :=
  StableHlo.after_of_writes_sub hostOps3 V hostOps3_writes h

/-- The buffers stretch 4 writes, in order. -/
abbrev written4 : List (Ref sig .tc) := [main_call0_cst_27, main_call0_v115, main_call0_v116, main_call0_v117, main_call0_c_28, main_call0_v118, main_call0_v119, main_call0_c_29, main_call0_v120, main_call0_v121, main_call0_v122, main_call0_v123, main_call0_v124, main_call0_v125, main_call0_v126, main_call0_v127, main_call0_cst_30, main_call0_v128, main_call0_v129, main_call0_v130, main_call0_v131, main_call0_v132]

set_option maxHeartbeats 4000000 in
/-- Every operation of stretch 4 writes only its own result buffer, which is in the list. -/
theorem hostOps4_writes : (hostOps4 (F := Ideal)).Forall fun op => op.writes ⊆ (written4.map (Proc.devRef (τ := τ) .tc)).toFinset := by
  simp only [hostOps4, List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A buffer stretch 4 does not write keeps its contents through it. -/
theorem keep4 (V : Valuation τ sig (Elt Ideal)) (b : Ref sig .tc) (h : b ∉ written4) :
    StableHlo.after (hostOps4 (F := Ideal)) V (Proc.devRef .tc b) = V (Proc.devRef .tc b) :=
  StableHlo.after_of_writes_sub hostOps4 V hostOps4_writes h

end Cert.KernelIdeal.HostWalk

end
-- ==== Proof.TypedPair.lean ====
/-
  A typed buffer reference carries the statement that its buffer's type is the tensor's type; contents are moved between
  the two spellings of that type along it. Moving a value into the buffer's spelling and back is the identity.
-/
import Idealize.ShloMosaic.Lib.StableHlo

namespace Cert.KernelIdeal.HostWalk

open Idealize.ShloMosaic

/-- Into the buffer's own type and back out: the value itself. -/
theorem ofBuf_toBuf {sig : RefSig} {T : BufTy} {Val : EltTy → Type} (x : StableHlo.TRef sig T) (v : T.Contents Val) :
    x.ofBuf (x.toBuf v) = v := by
  obtain ⟨r, rfl, _, _⟩ := x
  rfl

end Cert.KernelIdeal.HostWalk
-- ==== Proof.HostWalk0a.lean ====
/-
  The first host stretch, read back: it leaves the normalised edge weights of the first edge set in their buffer,
  as `edgeNorm` of that edge set's endpoints and weights as the stretch finds them.
-/
import proofs.«425108_j11218454577219_3_alg».proof.Proof.Gen.KernelIdeal.Frame
import proofs.«425108_j11218454577219_3_alg».proof.Proof.HostStages
import proofs.«425108_j11218454577219_3_alg».proof.Proof.TypedPair
import Idealize.ShloMosaic.Lib.StableHlo.Run

set_option maxRecDepth 16384

noncomputable section

namespace Cert.KernelIdeal.HostWalk

open Idealize.ShloMosaic Idealize.ShloMosaic.TcCoe Idealize.SL.Sem Idealize.ShloMosaic.StableHlo
open Cert.KernelIdeal Cert.KernelIdeal.Gen Cert.KernelIdeal.Stage

set_option maxHeartbeats 4000000

/-- After the first stretch this buffer holds the normalised weights of its edge set. -/
theorem s0_nw1 (V : Valuation τ sig (Elt Ideal)) {s e : IVec S1600000 32} {w : FVec Ideal S1600000 .f32}
    (hs : V (Proc.devRef .tc main_arg1) = s) (he : V (Proc.devRef .tc main_arg2) = e) (hw : V (Proc.devRef .tc main_arg3) = w) :
    StableHlo.after (hostOps0 (F := Ideal)) V (Proc.devRef .tc main_call0_v24) = edgeNorm s e w := by
  subst hs he hw
  simp only [hostOps0]
  after_results_simp
  simp only [ofBuf_toBuf]
  simp only [StableHlo.TRef.toBuf, StableHlo.TRef.ofBuf, cast_eq]
  unfold edgeNorm degree startCol
  rfl

end Cert.KernelIdeal.HostWalk

end
-- ==== Proof.HostWalk0b.lean ====
/-
  The first host stretch, read back: it leaves the normalised edge weights of the second edge set in their buffer,
  as `edgeNorm` of that edge set's endpoints and weights as the stretch finds them.
-/
import proofs.«425108_j11218454577219_3_alg».proof.Proof.Gen.KernelIdeal.Frame
import proofs.«425108_j11218454577219_3_alg».proof.Proof.HostStages
import proofs.«425108_j11218454577219_3_alg».proof.Proof.TypedPair
import Idealize.ShloMosaic.Lib.StableHlo.Run

set_option maxRecDepth 16384

noncomputable section

namespace Cert.KernelIdeal.HostWalk

open Idealize.ShloMosaic Idealize.ShloMosaic.TcCoe Idealize.SL.Sem Idealize.ShloMosaic.StableHlo
open Cert.KernelIdeal Cert.KernelIdeal.Gen Cert.KernelIdeal.Stage

set_option maxHeartbeats 4000000

/-- After the first stretch this buffer holds the normalised weights of its edge set. -/
theorem s0_nw2 (V : Valuation τ sig (Elt Ideal)) {s e : IVec S1600000 32} {w : FVec Ideal S1600000 .f32}
    (hs : V (Proc.devRef .tc main_arg4) = s) (he : V (Proc.devRef .tc main_arg5) = e) (hw : V (Proc.devRef .tc main_arg6) = w) :
    StableHlo.after (hostOps0 (F := Ideal)) V (Proc.devRef .tc main_call0_v49) = edgeNorm s e w := by
  subst hs he hw
  simp only [hostOps0]
  after_results_simp
  simp only [ofBuf_toBuf]
  simp only [StableHlo.TRef.toBuf, StableHlo.TRef.ofBuf, cast_eq]
  unfold edgeNorm degree startCol
  rfl

end Cert.KernelIdeal.HostWalk

end
-- ==== Proof.HostWalk0c.lean ====
/-
  The first host stretch, read back: it leaves the normalised edge weights of the third edge set in their buffer,
  as `edgeNorm` of that edge set's endpoints and weights as the stretch finds them.
-/
import proofs.«425108_j11218454577219_3_alg».proof.Proof.Gen.KernelIdeal.Frame
import proofs.«425108_j11218454577219_3_alg».proof.Proof.HostStages
import proofs.«425108_j11218454577219_3_alg».proof.Proof.TypedPair
import Idealize.ShloMosaic.Lib.StableHlo.Run

set_option maxRecDepth 16384

noncomputable section

namespace Cert.KernelIdeal.HostWalk

open Idealize.ShloMosaic Idealize.ShloMosaic.TcCoe Idealize.SL.Sem Idealize.ShloMosaic.StableHlo
open Cert.KernelIdeal Cert.KernelIdeal.Gen Cert.KernelIdeal.Stage

set_option maxHeartbeats 4000000

/-- After the first stretch this buffer holds the normalised weights of its edge set. -/
theorem s0_nw3 (V : Valuation τ sig (Elt Ideal)) {s e : IVec S1600000 32} {w : FVec Ideal S1600000 .f32}
    (hs : V (Proc.devRef .tc main_arg7) = s) (he : V (Proc.devRef .tc main_arg8) = e) (hw : V (Proc.devRef .tc main_arg9) = w) :
    StableHlo.after (hostOps0 (F := Ideal)) V (Proc.devRef .tc main_call0_v74) = edgeNorm s e w := by
  subst hs he hw
  simp only [hostOps0]
  after_results_simp
  simp only [ofBuf_toBuf]
  simp only [StableHlo.TRef.toBuf, StableHlo.TRef.ofBuf, cast_eq]
  unfold edgeNorm degree startCol
  rfl

end Cert.KernelIdeal.HostWalk

end
-- ==== Proof.HostWalk0d.lean ====
/-
  The first host stretch, read back: it leaves the first edge set's weighted in-degree in its buffer, the normalised
  weights of that edge set summed into their destinations.
-/
import proofs.«425108_j11218454577219_3_alg».proof.Proof.Gen.KernelIdeal.Frame
import proofs.«425108_j11218454577219_3_alg».proof.Proof.HostStages
import proofs.«425108_j11218454577219_3_alg».proof.Proof.TypedPair
import Idealize.ShloMosaic.Lib.StableHlo.Run

set_option maxRecDepth 16384

noncomputable section

namespace Cert.KernelIdeal.HostWalk

open Idealize.ShloMosaic Idealize.ShloMosaic.TcCoe Idealize.SL.Sem Idealize.ShloMosaic.StableHlo
open Cert.KernelIdeal Cert.KernelIdeal.Gen Cert.KernelIdeal.Stage

set_option maxHeartbeats 4000000

/-- After the first stretch the degree buffer holds the first edge set's weighted in-degree. -/
theorem s0_deg1 (V : Valuation τ sig (Elt Ideal)) {s e : IVec S1600000 32} {w : FVec Ideal S1600000 .f32}
    (hs : V (Proc.devRef .tc main_arg1) = s) (he : V (Proc.devRef .tc main_arg2) = e) (hw : V (Proc.devRef .tc main_arg3) = w) :
    StableHlo.after (hostOps0 (F := Ideal)) V (Proc.devRef .tc main_call0_v77) = degree e (edgeNorm s e w) := by
  subst hs he hw
  simp only [hostOps0]
  after_results_simp
  simp only [ofBuf_toBuf]
  simp only [StableHlo.TRef.toBuf, StableHlo.TRef.ofBuf, cast_eq]
  unfold edgeNorm degree startCol
  rfl

end Cert.KernelIdeal.HostWalk

end
-- ==== Proof.LibPlainDot.lean ====
/-
  A plain matrix product read at an element, on the extended reals.

  For the dimension numbers of a plain product — `[M, K]` by `[K, N]`, the left operand's axis 1 contracted with the
  right operand's axis 0, no batch axes — the operand indices at output element `(a, b)` and contraction coordinate
  `k` are `(a, k)` and `(k, b)`. So a product accumulated into the zero splat is, at `(a, b)`, the plain sum
  `∑ k : Fin K, lhs (a, k) * rhs (k, b)`, and so is the host's `dot_general`.
-/
import Idealize.ShloMosaic.PureOps.Ideal.Laws
import Idealize.ShloMosaic.Lib.ValueIdx

noncomputable section

open scoped BigOperators

namespace Cert.Lib

open Idealize.ShloMosaic Idealize.ShloMosaic.ValueIdx

/-- The dimension numbers of a plain product `[M, K] × [K, N] → [M, N]`: `lhs_contracting = [1]`,
    `rhs_contracting = [0]`, the other axes the result's, no batch axes. At a printed record every field is `rfl`. -/
structure PlainDot {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

variable {M K N : Nat} {d : DotDims ⟨2, ![M, K]⟩ ⟨2, ![K, N]⟩ ⟨2, ![M, N]⟩}

/-- A plain product contracts one axis. -/
theorem PlainDot.rank_contr (hd : PlainDot d) : d.contr.rank = 1 := by
  rw [d.rank_contr, hd.lc]; rfl

/-- The contracted axis has extent `K`. -/
theorem PlainDot.size_contr (hd : PlainDot d) : d.contr.size ⟨0, by rw [hd.rank_contr]; exact Nat.one_pos⟩ = K := by
  obtain ⟨h1, h2, h3, h4, h5, h6⟩ := hd
  obtain ⟨lc, rc, ln, rn, lb, rb, wf⟩ := d
  simp only at h1 h2 h3 h4 h5 h6
  subst h1 h2 h3 h4 h5 h6
  rfl

/-- The left operand's row is the output's row. -/
theorem PlainDot.lhs0 (hd : PlainDot d) (i : (⟨2, ![M, N]⟩ : Shape).Idx) (q : d.contr.Idx) :
    (d.lhsIdx i q 0).val = (i 0).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.lhsIdx
  rw [dif_neg (by simp), dif_pos (by simp)]
  rfl

/-- The left operand's column is the contraction coordinate. -/
theorem PlainDot.lhs1 (hd : PlainDot d) (i : (⟨2, ![M, N]⟩ : Shape).Idx) (q : d.contr.Idx) :
    (d.lhsIdx i q 1).val = (q ⟨0, by rw [hd.rank_contr]; exact Nat.one_pos⟩).val :=
  d.lhsIdx_val_of_single hd.lc i q

/-- The right operand's row is the contraction coordinate. -/
theorem PlainDot.rhs0 (hd : PlainDot d) (i : (⟨2, ![M, N]⟩ : Shape).Idx) (q : d.contr.Idx) :
    (d.rhsIdx i q 0).val = (q ⟨0, by rw [hd.rank_contr]; exact Nat.one_pos⟩).val :=
  d.rhsIdx_val_of_single hd.rc i q

/-- The right operand's column is the output's column. -/
theorem PlainDot.rhs1 (hd : PlainDot d) (i : (⟨2, ![M, N]⟩ : Shape).Idx) (q : d.contr.Idx) :
    (d.rhsIdx i q 1).val = (i 1).val := by
  obtain ⟨h1, h2, h3, h4, h5, h6⟩ := hd
  obtain ⟨lc, rc, ln, rn, lb, rb, wf⟩ := d
  simp only at h1 h2 h3 h4 h5 h6
  subst h1 h2 h3 h4 h5 h6
  unfold DotDims.rhsIdx
  rw [dif_neg (by simp), dif_pos (by simp)]
  rfl

/-- The contraction of a plain product, re-indexed by the contracted coordinate: at output element `(a, b)` it is
    `∑ k : Fin K, lhs (a, k) * rhs (k, b)`. -/
theorem PlainDot.sum_contr (hd : PlainDot d) (lhs : (⟨2, ![M, K]⟩ : Shape).Idx → EReal)
    (rhs : (⟨2, ![K, N]⟩ : Shape).Idx → EReal) (a : Fin M) (b : Fin N) :
    ∑ q : d.contr.Idx, lhs (d.lhsIdx (ix2 a b) q) * rhs (d.rhsIdx (ix2 a b) q)
      = ∑ k : Fin K, lhs (ix2 a k) * rhs (ix2 k b) := by
  rw [← Equiv.sum_comp (contrEquiv1 d K hd.rank_contr hd.size_contr).symm]
  refine Finset.sum_congr rfl fun k _ => ?_
  have hk := contrEquiv1_symm_val d K hd.rank_contr hd.size_contr k
  have el : d.lhsIdx (ix2 a b) ((contrEquiv1 d K hd.rank_contr hd.size_contr).symm k) = ix2 a k :=
    funext fun x => Fin.ext (by
      match x with
      | ⟨0, _⟩ => exact hd.lhs0 _ _
      | ⟨1, _⟩ => exact (hd.lhs1 _ _).trans hk)
  have er : d.rhsIdx (ix2 a b) ((contrEquiv1 d K hd.rank_contr hd.size_contr).symm k) = ix2 k b :=
    funext fun x => Fin.ext (by
      match x with
      | ⟨0, _⟩ => exact (hd.rhs0 _ _).trans hk
      | ⟨1, _⟩ => exact hd.rhs1 _ _)
  rw [el, er]

/-- A plain product accumulated into the zero splat, at element `(a, b)`: `∑ k, lhs (a, k) * rhs (k, b)`. -/
theorem PlainDot.matmul_zero_apply (hd : PlainDot d) {φ₁ φ₂ : FTy} (prec : Option ContractPrecision)
    (lhs : FVec Ideal ⟨2, ![M, K]⟩ φ₁) (rhs : FVec Ideal ⟨2, ![K, N]⟩ φ₂) (a : Fin M) (b : Fin N) :
    FloatOps.matmul d prec lhs rhs (constant ⟨2, ![M, N]⟩ .f32 0x00000000#32) (ix2 a b)
      = ∑ k : Fin K, lhs (ix2 a k) * rhs (ix2 k b) :=
  (Ideal.matmul_constant_zero_apply d prec lhs rhs (ix2 a b)).trans (hd.sum_contr lhs rhs a b)

/-- The host's plain `dot_general` at element `(a, b)`: the same sum. -/
theorem PlainDot.dotGeneral_apply (hd : PlainDot d) {φ₁ φ₂ : FTy} (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) :=
  (Ideal.dotGeneral_apply d prec sched lhs rhs (ix2 a b)).trans (hd.sum_contr lhs rhs a b)

end Cert.Lib

end
-- ==== Proof.Transform1.lean ====
/-
  The first feature transform, read as one matrix product over the extended reals.

  The node features `x : [100000, 128]` are taken ten thousand rows at a time; the weight `[128, 64]` is taken whole at
  every step. A step rounds both to the half-width format (the identity on the extended reals), multiplies them into
  the zero matrix and stores the `[10000, 64]` product as one block. So row `r` of the result depends on row `r` of
  `x` and on all of the weight: entry `(r, b)` is the sum over `k` of `x (r, k) * w (k, b)`. The ten row blocks tile the
  result, hence the whole array is the matrix product of the two arrays as the step finds them.
-/
import proofs.«425108_j11218454577219_3_alg».proof.Proof.Gen.KernelIdeal.Frame
import proofs.«425108_j11218454577219_3_alg».proof.Proof.Layer
import proofs.«425108_j11218454577219_3_alg».proof.Proof.LibPlainDot
import Idealize.ShloMosaic.Lib.Pipeline.Value
import Idealize.ShloMosaic.PureOps.Ideal.Laws

noncomputable section

namespace Cert.KernelIdeal.RegionValue

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

open scoped BigOperators

/-- The product's dimension numbers are those of a plain product: axis 1 of the left against axis 0 of the right. -/
private theorem plainDims1 : Cert.Lib.PlainDot dot_S10000x128_S128x64_S10000x64_1_0_0_1_n_n :=
  ⟨rfl, rfl, rfl, rfl, rfl, rfl⟩

/-- The offset of a whole-block access is zero on both axes. -/
private theorem zeroOff1 : (![0, 0] : Fin 2 → Nat) = fun _ => 0 := funext fun a => by fin_cases a <;> rfl

/-- One step's stored block at an element: row `p` of the feature block against column `q` of the weight. -/
private theorem stepProduct1_apply (x0 : Vec Ideal S10000x128 .f32) (x1 : Vec Ideal S128x64 .f32) (p : Fin 10000) (q : Fin 64) :
    k0_pay1 x0 x1 (ix2 p q) = ∑ k : Fin 128, x0 (ix2 p k) * x1 (ix2 k q) := by
  unfold k0_pay1
  exact plainDims1.matmul_zero_apply none _ _ p q

/-- Where the blocks sit, decided over the ten steps: step `t` takes feature rows from `10000 t`, the whole weight,
    and writes result rows from `10000 t`. -/
private theorem blockIndex1 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Every one of the ten row blocks of the result is some step's. -/
private theorem blockOnto1 : ∀ q0 : Fin 10, ∃ t : Fin cfg0.N, win0_2.index t = ![q0.val, 0] :=
  (by decide +kernel : ∀ q0 : Fin 10, ∃ t : Fin grid0.N, win0_2.index t = ![q0.val, 0])

/-- The feature block of step `t` at `(p, k)` is the feature array at row `10000 t + p`, column `k`. -/
private theorem featBlock1_apply (c : Dev nD) (t : Fin cfg0.N) (p : Fin 10000) (k : Fin 128) (i : S100000x128.Idx)
    (h0 : (i 0).val = t.val * 10000 + p.val) (h1 : (i 1).val = k.val) :
    (iblk0 (F := Ideal) V c 0 t : Vec Ideal S10000x128 .f32) (ix2 p k) = (V c main_arg0 : S100000x128.Idx → EReal) i := by
  obtain ⟨e0, e1, e2, e3, e4, e5⟩ := blockIndex1 t
  unfold iblk0
  rw [View.read_apply]
  show V c main_arg0 _ = V c main_arg0 _
  congr 1
  funext a
  apply Fin.ext
  match a with
  | ⟨0, _⟩ => show win0_0.index t (0 : Fin 2) * 10000 + 1 * p.val = (i 0).val; omega
  | ⟨1, _⟩ => show win0_0.index t (1 : Fin 2) * 128 + 1 * k.val = (i 1).val; omega

/-- The weight block of any step is the weight array. -/
private theorem weightBlock1_apply (c : Dev nD) (t : Fin cfg0.N) (k : Fin 128) (q : Fin 64) (i : S128x64.Idx)
    (h0 : (i 0).val = k.val) (h1 : (i 1).val = q.val) :
    (iblk0 (F := Ideal) V c 1 t : Vec Ideal S128x64 .f32) (ix2 k q) = (V c main_arg10 : S128x64.Idx → EReal) i := by
  obtain ⟨e0, e1, e2, e3, e4, e5⟩ := blockIndex1 t
  unfold iblk0
  rw [View.read_apply]
  show V c main_arg10 _ = V c main_arg10 _
  congr 1
  funext a
  apply Fin.ext
  match a with
  | ⟨0, _⟩ => show win0_1.index t (0 : Fin 2) * 128 + 1 * k.val = (i 0).val; omega
  | ⟨1, _⟩ => show win0_1.index t (1 : Fin 2) * 64 + 1 * q.val = (i 1).val; omega

/-- What step `t` writes back is block `t` of the matrix product of the two arrays. -/
private theorem written1_eq (c : Dev nD) (t : Fin cfg0.N) :
    (dat0 (F := Ideal) V c).flushed 2 t
      = ((cfg0.win 2).blk t).view.read (Elt Ideal) (Cert.Layer.matProd (V c main_arg0) (V c main_arg10)) := by
  show (cfg0.win 2).cut (grid0.coords t) ((dat0 (F := Ideal) V c).after 2 t) = _
  rw [after0_2]
  unfold out0_2
  rw [View.canon_unit_zero zeroOff1]
  simp only [View.ld_unit_zero (S := S10000x128) zeroOff1, View.ld_unit_zero (S := S128x64) zeroOff1]
  obtain ⟨e0, e1, e2, e3, e4, e5⟩ := blockIndex1 t
  funext j
  show k0_pay1 (F := Ideal) (iblk0 V c 0 t) (iblk0 V c 1 t) j
    = Cert.Layer.matProd (V c main_arg0) (V c main_arg10) (((cfg0.win 2).blk t).view.emb j)
  obtain ⟨p, q, rfl⟩ : ∃ (p : Fin 10000) (q : Fin 64), j = ix2 p q := ⟨j 0, j 1, eq_ix2 j⟩
  refine (stepProduct1_apply (iblk0 V c 0 t) (iblk0 V c 1 t) p q).trans ?_
  have r0 : ((((cfg0.win 2).blk t).view.emb (ix2 p q)) 0).val = t.val * 10000 + p.val := by
    show win0_2.index t (0 : Fin 2) * 10000 + 1 * p.val = _; omega
  have r1 : ((((cfg0.win 2).blk t).view.emb (ix2 p q)) 1).val = q.val := by
    show win0_2.index t (1 : Fin 2) * 64 + 1 * q.val = _; omega
  unfold Cert.Layer.matProd
  refine Finset.sum_congr rfl fun k _ => ?_
  exact congrArg₂ (· * ·) (featBlock1_apply V c t p k _ r0 rfl) (weightBlock1_apply V c t k q _ rfl r1)

/-- An index of the result lies in step `t`'s block iff each coordinate lies in the block's range on its axis. -/
private theorem mem_block1 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_call0_v78).slice (win0_2.rect t)).set ↔ _
  rw [View.set_slice_whole, Rect.mem_set_unit]
  exact Iff.rfl

/-- The ten row blocks tile the result: row `r` lies in the block of step `r / 10000`. -/
private theorem covered1 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := blockOnto1 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_block1]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 64 ≤ (i 1).val ∧ (i 1).val < win0_2.index t (1 : Fin 2) * 64 + 64
    omega

/-- The result array after the ten steps is the matrix product of the feature array and the weight array. -/
theorem transform1 (c : Dev nD) :
    (dat0 (F := Ideal) V c).arrAt 2 cfg0.N = Cert.Layer.matProd (V c main_arg0) (V c main_arg10) :=
  (dat0 (F := Ideal) V c).arrAt_eq_of_cover 2 _ (fun t _ => written1_eq V c t) covered1

end Cert.KernelIdeal.RegionValue

end
-- ==== Proof.Transform2.lean ====
/-
  The second feature transform, read as one matrix product over the extended reals.

  The hidden features `h : [100000, 64]` left by the first layer are taken ten thousand rows at a time; the weight
  `[64, 32]` is taken whole at every step. A step recasts its feature block to its own shape and rounds both operands
  to the half-width format (each the identity on the extended reals), multiplies them into the zero matrix and stores
  the `[10000, 32]` product as one block. Entry `(r, b)` of the result is therefore the sum over `k` of
  `h (r, k) * w (k, b)`, and since the ten row blocks tile the result, the whole array is the matrix product of the two
  arrays as the step finds them.
-/
import proofs.«425108_j11218454577219_3_alg».proof.Proof.Gen.KernelIdeal.Frame
import proofs.«425108_j11218454577219_3_alg».proof.Proof.Layer
import proofs.«425108_j11218454577219_3_alg».proof.Proof.LibPlainDot
import Idealize.ShloMosaic.Lib.Pipeline.Value
import Idealize.ShloMosaic.PureOps.Ideal.Laws

noncomputable section

namespace Cert.KernelIdeal.RegionValue

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

open scoped BigOperators

/-- The product's dimension numbers are those of a plain product: axis 1 of the left against axis 0 of the right. -/
private theorem plainDims2 : Cert.Lib.PlainDot dot_S10000x64_S64x32_S10000x32_1_0_0_1_n_n :=
  ⟨rfl, rfl, rfl, rfl, rfl, rfl⟩

/-- The offset of a whole-block access is zero on both axes. -/
private theorem zeroOff2 : (![0, 0] : Fin 2 → Nat) = fun _ => 0 := funext fun a => by fin_cases a <;> rfl

/-- One step's stored block at an element: row `p` of the feature block against column `q` of the weight; the recast
    of the feature block to its own shape changes nothing. -/
private theorem stepProduct2_apply (x0 : Vec Ideal S10000x64 .f32) (x1 : Vec Ideal S64x32 .f32) (p : Fin 10000) (q : Fin 32) :
    k2_pay1 x0 x1 (ix2 p q) = ∑ k : Fin 64, x0 (ix2 p k) * x1 (ix2 k q) := by
  unfold k2_pay1
  rw [shapeCast_self]
  exact plainDims2.matmul_zero_apply none _ _ p q

/-- Where the blocks sit, decided over the ten steps: step `t` takes feature rows from `10000 t`, the whole weight,
    and writes result rows from `10000 t`. -/
private theorem blockIndex2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- Every one of the ten row blocks of the result is some step's. -/
private theorem blockOnto2 : ∀ q0 : Fin 10, ∃ t : Fin cfg2.N, win2_2.index t = ![q0.val, 0] :=
  (by decide +kernel : ∀ q0 : Fin 10, ∃ t : Fin grid2.N, win2_2.index t = ![q0.val, 0])

/-- The feature block of step `t` at `(p, k)` is the feature array at row `10000 t + p`, column `k`. -/
private theorem featBlock2_apply (c : Dev nD) (t : Fin cfg2.N) (p : Fin 10000) (k : Fin 64) (i : S100000x64.Idx)
    (h0 : (i 0).val = t.val * 10000 + p.val) (h1 : (i 1).val = k.val) :
    (iblk2 (F := Ideal) V c 0 t : Vec Ideal S10000x64 .f32) (ix2 p k)
      = (V c main_call0_v94 : S100000x64.Idx → EReal) i := by
  obtain ⟨e0, e1, e2, e3, e4, e5⟩ := blockIndex2 t
  unfold iblk2
  rw [View.read_apply]
  show V c main_call0_v94 _ = V c main_call0_v94 _
  congr 1
  funext a
  apply Fin.ext
  match a with
  | ⟨0, _⟩ => show win2_0.index t (0 : Fin 2) * 10000 + 1 * p.val = (i 0).val; omega
  | ⟨1, _⟩ => show win2_0.index t (1 : Fin 2) * 64 + 1 * k.val = (i 1).val; omega

/-- The weight block of any step is the weight array. -/
private theorem weightBlock2_apply (c : Dev nD) (t : Fin cfg2.N) (k : Fin 64) (q : Fin 32) (i : S64x32.Idx)
    (h0 : (i 0).val = k.val) (h1 : (i 1).val = q.val) :
    (iblk2 (F := Ideal) V c 1 t : Vec Ideal S64x32 .f32) (ix2 k q) = (V c main_arg12 : S64x32.Idx → EReal) i := by
  obtain ⟨e0, e1, e2, e3, e4, e5⟩ := blockIndex2 t
  unfold iblk2
  rw [View.read_apply]
  show V c main_arg12 _ = V c main_arg12 _
  congr 1
  funext a
  apply Fin.ext
  match a with
  | ⟨0, _⟩ => show win2_1.index t (0 : Fin 2) * 64 + 1 * k.val = (i 0).val; omega
  | ⟨1, _⟩ => show win2_1.index t (1 : Fin 2) * 32 + 1 * q.val = (i 1).val; omega

/-- What step `t` writes back is block `t` of the matrix product of the two arrays. -/
private theorem written2_eq (c : Dev nD) (t : Fin cfg2.N) :
    (dat2 (F := Ideal) V c).flushed 2 t
      = ((cfg2.win 2).blk t).view.read (Elt Ideal) (Cert.Layer.matProd (V c main_call0_v94) (V c main_arg12)) := by
  show (cfg2.win 2).cut (grid2.coords t) ((dat2 (F := Ideal) V c).after 2 t) = _
  rw [after2_2]
  unfold out2_2
  rw [View.canon_unit_zero zeroOff2]
  simp only [View.ld_unit_zero (S := S10000x64) zeroOff2, View.ld_unit_zero (S := S64x32) zeroOff2]
  obtain ⟨e0, e1, e2, e3, e4, e5⟩ := blockIndex2 t
  funext j
  show k2_pay1 (F := Ideal) (iblk2 V c 0 t) (iblk2 V c 1 t) j
    = Cert.Layer.matProd (V c main_call0_v94) (V c main_arg12) (((cfg2.win 2).blk t).view.emb j)
  obtain ⟨p, q, rfl⟩ : ∃ (p : Fin 10000) (q : Fin 32), j = ix2 p q := ⟨j 0, j 1, eq_ix2 j⟩
  refine (stepProduct2_apply (iblk2 V c 0 t) (iblk2 V c 1 t) p q).trans ?_
  have r0 : ((((cfg2.win 2).blk t).view.emb (ix2 p q)) 0).val = t.val * 10000 + p.val := by
    show win2_2.index t (0 : Fin 2) * 10000 + 1 * p.val = _; omega
  have r1 : ((((cfg2.win 2).blk t).view.emb (ix2 p q)) 1).val = q.val := by
    show win2_2.index t (1 : Fin 2) * 32 + 1 * q.val = _; omega
  unfold Cert.Layer.matProd
  refine Finset.sum_congr rfl fun k _ => ?_
  exact congrArg₂ (· * ·) (featBlock2_apply V c t p k _ r0 rfl) (weightBlock2_apply V c t k q _ rfl r1)

/-- An index of the result lies in step `t`'s block iff each coordinate lies in the block's range on its axis. -/
private theorem mem_block2 (t : Fin cfg2.N) (i : S100000x32.Idx) :
    i ∈ ((cfg2.win 2).blk t).view.set ↔ ∀ a : Fin 2, win2_2.index t a * S10000x32.size a ≤ (i a).val
      ∧ (i a).val < win2_2.index t a * S10000x32.size a + S10000x32.size a := by
  show i ∈ ((View.whole main_call0_v98).slice (win2_2.rect t)).set ↔ _
  rw [View.set_slice_whole, Rect.mem_set_unit]
  exact Iff.rfl

/-- The ten row blocks tile the result: row `r` lies in the block of step `r / 10000`. -/
private theorem covered2 (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  obtain ⟨t, ht⟩ := blockOnto2 ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_block2]
  intro a
  match a with
  | ⟨0, _⟩ =>
    show win2_2.index t (0 : Fin 2) * 10000 ≤ (i 0).val ∧ (i 0).val < win2_2.index t (0 : Fin 2) * 10000 + 10000
    omega
  | ⟨1, _⟩ =>
    show win2_2.index t (1 : Fin 2) * 32 ≤ (i 1).val ∧ (i 1).val < win2_2.index t (1 : Fin 2) * 32 + 32
    omega

/-- The result array after the ten steps is the matrix product of the hidden-feature array and the weight array. -/
theorem transform2 (c : Dev nD) :
    (dat2 (F := Ideal) V c).arrAt 2 cfg2.N = Cert.Layer.matProd (V c main_call0_v94) (V c main_arg12) :=
  (dat2 (F := Ideal) V c).arrAt_eq_of_cover 2 _ (fun t _ => written2_eq V c t) covered2

end Cert.KernelIdeal.RegionValue

end
-- ==== Proof.LibRowReduce.lean ====
/-
  Row reductions of a matrix and the "keepdims" column they are carried in, read at coordinates.

  A matrix of shape `[a, b]` reduced along its second axis gives one number per row. Kept as a column `[a, 1]`
  (a shape cast of the `[a]` vector) and broadcast back over the `b` columns, entry `(r, c)` of the broadcast is
  the number of row `r`. At the extended reals the sum along a row is the finite sum of the row's entries, and the
  maximum along a row is the fold of `max` over them from the accumulator's value.
-/
import Idealize.ShloMosaic.Lib.ValueLayout
import Idealize.ShloMosaic.PureOps.Ideal.Laws

noncomputable section

namespace Cert.RowReduce

open Idealize.ShloMosaic Idealize.ShloMosaic.ValueIdx

variable {α : Type}

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(i, j)`, the column at row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Along the second axis of `[a, b]`, the source index over row `r` with coordinate `k` inserted is `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

variable {φ : FTy}

/-- A sum along the rows of a matrix of extended reals, at row `r`: the finite sum of that row's entries. -/
theorem rowSum_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the rows of a matrix of extended reals, at row `r`: the fold of `max` over that row's entries
    from the accumulator's value. -/
theorem rowMax_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (fun f => Finset.fold max (Ideal.ofBits φ acc) f (Finset.univ : Finset (Fin b)))
    (funext fun k => congrArg src (lift_row h r k))

end Cert.RowReduce

end
-- ==== Proof.Closing1.lean ====
/-
  The first degree-normalising step, as one function of whole arrays over the extended reals.

  The aggregated features `[100000, 64]` are visited in twenty slabs of 5000 rows. On a slab, entry `(p, q)` of what is
  written is the aggregate at `(p, q)` divided by the larger of the row's degree and the floor word, plus the bias at
  column `q`. Slab `t` sits at rows `5000 t .. 5000 t + 4999` of the aggregate, of the degree column and of the result,
  and the bias row is the same on every slab; the twenty slabs fill the result. So the result array is
  `scaleShift` of the aggregate, the degree column and the bias row.
-/
import proofs.«425108_j11218454577219_3_alg».proof.Proof.Gen.KernelIdeal.Frame
import proofs.«425108_j11218454577219_3_alg».proof.Proof.Layer
import proofs.«425108_j11218454577219_3_alg».proof.Proof.LibRowReduce
import Idealize.ShloMosaic.Lib.Pipeline.Value
import Idealize.ShloMosaic.Lib.ValueLayout

noncomputable section

namespace Cert.KernelIdeal.RegionValue

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The offset of a slab inside its own staging shape is zero on both axes. -/
theorem zeroOff1 : (![0, 0] : Fin 2 → Nat) = fun _ => 0 := funext fun a => by fin_cases a <;> rfl

/-- One slab's result at `(p, q)`: the aggregate over the floored degree of row `p`, plus the bias at column `q`. -/
theorem slab1_apply (d : Vec Ideal S5000x1 .f32) (a : Vec Ideal S5000x64 .f32) (b : Vec Ideal S1x64 .f32)
    (p : Fin 5000) (q : Fin 64) :
    k1_pay1 (F := Ideal) d a b (ix2 p q)
      = Ideal.div (a (ix2 p q)) (max (d (ix2 p (0 : Fin 1))) Cert.Layer.degFloor) + b (ix2 (0 : Fin 1) q) := by
  unfold k1_pay1
  simp only [shapeCast_self]
  rw [addf_apply, divf_apply, broadcastTo_1b_ab_apply, Cert.RowReduce.broadcastTo_a1_ab_apply, maximumf_apply,
    broadcast_apply]
  rfl

/-- Where slab `t` sits: row block `t` of the aggregate, of the degree column and of the result, column block 0
    throughout, and the bias row's only block. -/
theorem slabAt1 : ∀ t : Fin cfg1.N,
    win1_0.index t (0 : Fin 2) = win1_3.index t (0 : Fin 2) ∧ win1_0.index t (1 : Fin 2) = win1_3.index t (1 : Fin 2)
    ∧ win1_1.index t (0 : Fin 2) = win1_3.index t (0 : Fin 2) ∧ win1_1.index t (1 : Fin 2) = 0
    ∧ win1_2.index t (0 : Fin 2) = 0 ∧ win1_2.index t (1 : Fin 2) = win1_3.index t (1 : Fin 2)
    ∧ win1_3.index t (0 : Fin 2) = t.val ∧ win1_3.index t (1 : Fin 2) = 0 :=
  (by decide +kernel : ∀ t : Fin grid1.N, _)

/-- What point `t` writes back is slab `t` of `scaleShift` of the three arrays. -/
theorem flushed1_eq (c : Dev nD) (t : Fin cfg1.N) :
    (dat1 (F := Ideal) V c).flushed 3 t = ((cfg1.win 3).blk t).view.read (Elt Ideal)
      (Cert.Layer.scaleShift (V c main_call0_v91) (V c main_call0_v92) (V c main_call0_v93)) := by
  show (cfg1.win 3).cut (grid1.coords t) ((dat1 V c).after 3 t) = _
  rw [after1_3]
  unfold out1_3
  rw [View.canon_unit_zero zeroOff1]
  simp only [View.ld_unit_zero (S := S5000x1) zeroOff1, View.ld_unit_zero (S := S5000x64) zeroOff1,
    View.ld_unit_zero (S := S1x64) zeroOff1]
  obtain ⟨e0, e1, e2, e3, e4, e5, e6, e7⟩ := slabAt1 t
  refine funext fun (j : S5000x64.Idx) => ?_
  obtain ⟨p, q, rfl⟩ : ∃ (p : Fin 5000) (q : Fin 64), j = ix2 p q := ⟨j 0, j 1, eq_ix2 j⟩
  show k1_pay1 (F := Ideal) (iblk1 V c 1 t) (iblk1 V c 0 t) (iblk1 V c 2 t) (ix2 p q)
    = Cert.Layer.scaleShift (V c main_call0_v91) (V c main_call0_v92) (V c main_call0_v93)
        (((cfg1.win 3).blk t).view.emb (ix2 p q))
  refine (slab1_apply _ _ _ p q).trans ?_
  have ht : t.val < 20 := t.isLt
  have hp : p.val < 5000 := p.isLt
  have hr : t.val * 5000 + p.val < 100000 := by omega
  -- row `p` of slab `t` is row `5000 t + p` of the result
  have hout : ((cfg1.win 3).blk t).view.emb (ix2 p q) = ix2 (⟨t.val * 5000 + p.val, hr⟩ : Fin 100000) q := by
    funext a; apply Fin.ext
    match a with
    | ⟨0, _⟩ => show win1_3.index t (0 : Fin 2) * 5000 + 1 * p.val = t.val * 5000 + p.val; omega
    | ⟨1, _⟩ => show win1_3.index t (1 : Fin 2) * 64 + 1 * q.val = q.val; omega
  -- of the aggregate,
  have hagg : iblk1 V c 0 t (ix2 p q) = V c main_call0_v91 (ix2 (⟨t.val * 5000 + p.val, hr⟩ : Fin 100000) q) := by
    show V c main_call0_v91 (((cfg1.win 0).blk t).view.emb (ix2 p q)) = _
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * q.val = q.val; omega
  -- and of the degree column;
  have hdeg : iblk1 V c 1 t (ix2 p (0 : Fin 1)) = V c main_call0_v92 (ix2 (⟨t.val * 5000 + p.val, hr⟩ : Fin 100000) (0 : Fin 1)) := by
    show V c main_call0_v92 (((cfg1.win 1).blk t).view.emb (ix2 p (0 : Fin 1))) = _
    refine congrArg _ (funext fun a => Fin.ext ?_)
    match a with
    | ⟨0, _⟩ => show win1_1.index t (0 : Fin 2) * 5000 + 1 * p.val = t.val * 5000 + p.val; omega
    | ⟨1, _⟩ => show win1_1.index t (1 : Fin 2) * 1 + 1 * 0 = 0; omega
  -- the bias row is its own only block.
  have hbias : iblk1 V c 2 t (ix2 (0 : Fin 1) q) = V c main_call0_v93 (ix2 (0 : Fin 1) q) := by
    show V c main_call0_v93 (((cfg1.win 2).blk t).view.emb (ix2 (0 : Fin 1) q)) = _
    refine congrArg _ (funext fun a => Fin.ext ?_)
    match a with
    | ⟨0, _⟩ => show win1_2.index t (0 : Fin 2) * 1 + 1 * 0 = 0; omega
    | ⟨1, _⟩ => show win1_2.index t (1 : Fin 2) * 64 + 1 * q.val = q.val; omega
  rw [hout, Cert.Layer.scaleShift_apply, hagg, hdeg, hbias]

/-- An index of the result is in slab `t` exactly when each coordinate is in the slab's range on its axis. -/
theorem mem_slab1 (t : Fin cfg1.N) (i : S100000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_call0_v94).slice (win1_3.rect t)).set ↔ _
  rw [View.set_slice_whole, Rect.mem_set_unit]
  exact Iff.rfl

/-- Every index of the result is in a slab: row `r` is in slab `r / 5000`. -/
theorem slabs_cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hlt : (i 0).val / 5000 < cfg1.N := by show (i 0).val / 5000 < 20; omega
  obtain ⟨-, -, -, -, -, -, e6, e7⟩ := slabAt1 ⟨(i 0).val / 5000, hlt⟩
  have e6' : win1_3.index ⟨(i 0).val / 5000, hlt⟩ (0 : Fin 2) = (i 0).val / 5000 := e6
  refine ⟨⟨(i 0).val / 5000, hlt⟩, flush1_3 _, ?_⟩
  rw [mem_slab1]
  intro a
  match a with
  | ⟨0, _⟩ =>
    show win1_3.index ⟨(i 0).val / 5000, hlt⟩ (0 : Fin 2) * 5000 ≤ (i 0).val
      ∧ (i 0).val < win1_3.index ⟨(i 0).val / 5000, hlt⟩ (0 : Fin 2) * 5000 + 5000
    omega
  | ⟨1, _⟩ =>
    show win1_3.index ⟨(i 0).val / 5000, hlt⟩ (1 : Fin 2) * 64 ≤ (i 1).val
      ∧ (i 1).val < win1_3.index ⟨(i 0).val / 5000, hlt⟩ (1 : Fin 2) * 64 + 64
    omega

/-- The result array after the region: `scaleShift` of the aggregate, the degree column and the bias row. -/
theorem closing1 (c : Dev nD) :
    (dat1 (F := Ideal) V c).arrAt 3 cfg1.N
      = Cert.Layer.scaleShift (V c main_call0_v91) (V c main_call0_v92) (V c main_call0_v93) :=
  (dat1 (F := Ideal) V c).arrAt_eq_of_cover 3 _ (fun t _ => flushed1_eq V c t) slabs_cover1

end Cert.KernelIdeal.RegionValue

end
-- ==== Proof.Closing2.lean ====
/-
  The second degree-normalising step, as one function of whole arrays over the extended reals.

  Here the aggregated features are `[100000, 32]`, again visited in twenty slabs of 5000 rows. On a slab, entry
  `(p, q)` of what is written is the aggregate at `(p, q)` divided by the larger of the row's degree and the floor
  word, plus the bias at column `q` (32 columns). Slab `t` is rows `5000 t .. 5000 t + 4999` of the aggregate, of the
  degree column and of the result; the bias row is read whole on every slab; the slabs fill the result. Hence the
  result array is `scaleShift` of the aggregate, the degree column and the bias row.
-/
import proofs.«425108_j11218454577219_3_alg».proof.Proof.Gen.KernelIdeal.Frame
import proofs.«425108_j11218454577219_3_alg».proof.Proof.Layer
import proofs.«425108_j11218454577219_3_alg».proof.Proof.LibRowReduce
import Idealize.ShloMosaic.Lib.Pipeline.Value
import Idealize.ShloMosaic.Lib.ValueLayout

noncomputable section

namespace Cert.KernelIdeal.RegionValue

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-- The offset of a slab inside its own staging shape is zero on both axes. -/
theorem zeroOff3 : (![0, 0] : Fin 2 → Nat) = fun _ => 0 := funext fun a => by fin_cases a <;> rfl

/-- One slab's result at `(p, q)`: the aggregate over the floored degree of row `p`, plus the bias at column `q`. -/
theorem slab3_apply (d : Vec Ideal S5000x1 .f32) (a : Vec Ideal S5000x32 .f32) (b : Vec Ideal S1x32 .f32)
    (p : Fin 5000) (q : Fin 32) :
    k3_pay1 (F := Ideal) d a b (ix2 p q)
      = Ideal.div (a (ix2 p q)) (max (d (ix2 p (0 : Fin 1))) Cert.Layer.degFloor) + b (ix2 (0 : Fin 1) q) := by
  unfold k3_pay1
  simp only [shapeCast_self]
  rw [addf_apply, divf_apply, broadcastTo_1b_ab_apply, Cert.RowReduce.broadcastTo_a1_ab_apply, maximumf_apply,
    broadcast_apply]
  rfl

/-- Where slab `t` sits: row block `t` of the aggregate, of the degree column and of the result, column block 0
    throughout, and the bias row's only block. -/
theorem slabAt3 : ∀ t : Fin cfg3.N,
    win3_0.index t (0 : Fin 2) = win3_3.index t (0 : Fin 2) ∧ win3_0.index t (1 : Fin 2) = win3_3.index t (1 : Fin 2)
    ∧ win3_1.index t (0 : Fin 2) = win3_3.index t (0 : Fin 2) ∧ win3_1.index t (1 : Fin 2) = 0
    ∧ win3_2.index t (0 : Fin 2) = 0 ∧ win3_2.index t (1 : Fin 2) = win3_3.index t (1 : Fin 2)
    ∧ win3_3.index t (0 : Fin 2) = t.val ∧ win3_3.index t (1 : Fin 2) = 0 :=
  (by decide +kernel : ∀ t : Fin grid3.N, _)

/-- What point `t` writes back is slab `t` of `scaleShift` of the three arrays. -/
theorem flushed3_eq (c : Dev nD) (t : Fin cfg3.N) :
    (dat3 (F := Ideal) V c).flushed 3 t = ((cfg3.win 3).blk t).view.read (Elt Ideal)
      (Cert.Layer.scaleShift (V c main_call0_v111) (V c main_call0_v112) (V c main_call0_v113)) := by
  show (cfg3.win 3).cut (grid3.coords t) ((dat3 V c).after 3 t) = _
  rw [after3_3]
  unfold out3_3
  rw [View.canon_unit_zero zeroOff3]
  simp only [View.ld_unit_zero (S := S5000x1) zeroOff3, View.ld_unit_zero (S := S5000x32) zeroOff3,
    View.ld_unit_zero (S := S1x32) zeroOff3]
  obtain ⟨e0, e1, e2, e3, e4, e5, e6, e7⟩ := slabAt3 t
  refine funext fun (j : S5000x32.Idx) => ?_
  obtain ⟨p, q, rfl⟩ : ∃ (p : Fin 5000) (q : Fin 32), j = ix2 p q := ⟨j 0, j 1, eq_ix2 j⟩
  show k3_pay1 (F := Ideal) (iblk3 V c 1 t) (iblk3 V c 0 t) (iblk3 V c 2 t) (ix2 p q)
    = Cert.Layer.scaleShift (V c main_call0_v111) (V c main_call0_v112) (V c main_call0_v113)
        (((cfg3.win 3).blk t).view.emb (ix2 p q))
  refine (slab3_apply _ _ _ p q).trans ?_
  have ht : t.val < 20 := t.isLt
  have hp : p.val < 5000 := p.isLt
  have hr : t.val * 5000 + p.val < 100000 := by omega
  -- row `p` of slab `t` is row `5000 t + p` of the result
  have hout : ((cfg3.win 3).blk t).view.emb (ix2 p q) = ix2 (⟨t.val * 5000 + p.val, hr⟩ : Fin 100000) q := by
    funext a; apply Fin.ext
    match a with
    | ⟨0, _⟩ => show win3_3.index t (0 : Fin 2) * 5000 + 1 * p.val = t.val * 5000 + p.val; omega
    | ⟨1, _⟩ => show win3_3.index t (1 : Fin 2) * 32 + 1 * q.val = q.val; omega
  -- of the aggregate,
  have hagg : iblk3 V c 0 t (ix2 p q) = V c main_call0_v111 (ix2 (⟨t.val * 5000 + p.val, hr⟩ : Fin 100000) q) := by
    show V c main_call0_v111 (((cfg3.win 0).blk t).view.emb (ix2 p q)) = _
    refine congrArg _ (funext fun a => Fin.ext ?_)
    match a with
    | ⟨0, _⟩ => show win3_0.index t (0 : Fin 2) * 5000 + 1 * p.val = t.val * 5000 + p.val; omega
    | ⟨1, _⟩ => show win3_0.index t (1 : Fin 2) * 32 + 1 * q.val = q.val; omega
  -- and of the degree column;
  have hdeg : iblk3 V c 1 t (ix2 p (0 : Fin 1)) = V c main_call0_v112 (ix2 (⟨t.val * 5000 + p.val, hr⟩ : Fin 100000) (0 : Fin 1)) := by
    show V c main_call0_v112 (((cfg3.win 1).blk t).view.emb (ix2 p (0 : Fin 1))) = _
    refine congrArg _ (funext fun a => Fin.ext ?_)
    match a with
    | ⟨0, _⟩ => show win3_1.index t (0 : Fin 2) * 5000 + 1 * p.val = t.val * 5000 + p.val; omega
    | ⟨1, _⟩ => show win3_1.index t (1 : Fin 2) * 1 + 1 * 0 = 0; omega
  -- the bias row is its own only block.
  have hbias : iblk3 V c 2 t (ix2 (0 : Fin 1) q) = V c main_call0_v113 (ix2 (0 : Fin 1) q) := by
    show V c main_call0_v113 (((cfg3.win 2).blk t).view.emb (ix2 (0 : Fin 1) q)) = _
    refine congrArg _ (funext fun a => Fin.ext ?_)
    match a with
    | ⟨0, _⟩ => show win3_2.index t (0 : Fin 2) * 1 + 1 * 0 = 0; omega
    | ⟨1, _⟩ => show win3_2.index t (1 : Fin 2) * 32 + 1 * q.val = q.val; omega
  rw [hout, Cert.Layer.scaleShift_apply, hagg, hdeg, hbias]

/-- An index of the result is in slab `t` exactly when each coordinate is in the slab's range on its axis. -/
theorem mem_slab3 (t : Fin cfg3.N) (i : S100000x32.Idx) :
    i ∈ ((cfg3.win 3).blk t).view.set ↔ ∀ a : Fin 2, win3_3.index t a * S5000x32.size a ≤ (i a).val
      ∧ (i a).val < win3_3.index t a * S5000x32.size a + S5000x32.size a := by
  show i ∈ ((View.whole main_call0_v114).slice (win3_3.rect t)).set ↔ _
  rw [View.set_slice_whole, Rect.mem_set_unit]
  exact Iff.rfl

/-- Every index of the result is in a slab: row `r` is in slab `r / 5000`. -/
theorem slabs_cover3 (i : S100000x32.Idx) :
    ∃ t : Fin cfg3.N, (cfg3.win 3).flush t = true ∧ i ∈ ((cfg3.win 3).blk t).view.set := by
  have hi0 : (i 0).val < 100000 := (i 0).isLt
  have hi1 : (i 1).val < 32 := (i 1).isLt
  have hlt : (i 0).val / 5000 < cfg3.N := by show (i 0).val / 5000 < 20; omega
  obtain ⟨-, -, -, -, -, -, e6, e7⟩ := slabAt3 ⟨(i 0).val / 5000, hlt⟩
  have e6' : win3_3.index ⟨(i 0).val / 5000, hlt⟩ (0 : Fin 2) = (i 0).val / 5000 := e6
  refine ⟨⟨(i 0).val / 5000, hlt⟩, flush3_3 _, ?_⟩
  rw [mem_slab3]
  intro a
  match a with
  | ⟨0, _⟩ =>
    show win3_3.index ⟨(i 0).val / 5000, hlt⟩ (0 : Fin 2) * 5000 ≤ (i 0).val
      ∧ (i 0).val < win3_3.index ⟨(i 0).val / 5000, hlt⟩ (0 : Fin 2) * 5000 + 5000
    omega
  | ⟨1, _⟩ =>
    show win3_3.index ⟨(i 0).val / 5000, hlt⟩ (1 : Fin 2) * 32 ≤ (i 1).val
      ∧ (i 1).val < win3_3.index ⟨(i 0).val / 5000, hlt⟩ (1 : Fin 2) * 32 + 32
    omega

/-- The result array after the region: `scaleShift` of the aggregate, the degree column and the bias row. -/
theorem closing2 (c : Dev nD) :
    (dat3 (F := Ideal) V c).arrAt 3 cfg3.N
      = Cert.Layer.scaleShift (V c main_call0_v111) (V c main_call0_v112) (V c main_call0_v113) :=
  (dat3 (F := Ideal) V c).arrAt_eq_of_cover 3 _ (fun t _ => flushed3_eq V c t) slabs_cover3

end Cert.KernelIdeal.RegionValue

end
-- ==== Proof.Fused3.lean ====
/-
  The last layer's fused step as one function of whole arrays.

  Each of the twenty grid points multiplies a block of 5000 rows of the aggregated features [100000, 32] by the
  weight matrix [32, 32], divides every row of the product by that row's degree (a column [100000, 1]) floored at
  the single-precision word of 1e-12, adds the bias row [1, 32], and writes the block of 5000 rows back. The
  blocks are rows 5000 t … 5000 t + 4999, so they tile the output, and the output array ends as
  `scaleShift (matProd X W) d r` of the four input arrays as the region finds them.
-/
import proofs.«425108_j11218454577219_3_alg».proof.Proof.Gen.KernelIdeal.Frame
import proofs.«425108_j11218454577219_3_alg».proof.Proof.Layer
import proofs.«425108_j11218454577219_3_alg».proof.Proof.LibPlainDot
import proofs.«425108_j11218454577219_3_alg».proof.Proof.LibRowReduce
import Idealize.ShloMosaic.Lib.Pipeline.Value
import Idealize.ShloMosaic.Lib.ValueLayout
import Idealize.ShloMosaic.PureOps.Ideal.Laws

noncomputable section

namespace Cert.KernelIdeal.RegionValue

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

open scoped BigOperators

/-- The product's dimension numbers are those of a plain matrix product: axis 1 of the left operand contracted
    with axis 0 of the right one, no batch axes. -/
theorem plainDot_fused3 : Cert.Lib.PlainDot dot_S5000x32_S32x32_S5000x32_1_0_0_1_n_n :=
  ⟨rfl, rfl, rfl, rfl, rfl, rfl⟩

/-- The body's stored value at row `p`, column `q` of a block: the row of the feature block times the column of the
    weights, over the row's floored degree, plus the bias at the column. The casts to half precision and the
    casts of a shape to itself are the identity on extended reals. -/
theorem pay_fused3_apply (x0 : Vec Ideal S5000x32 .f32) (x1 : Vec Ideal S32x32 .f32) (x2 : Vec Ideal S5000x1 .f32)
    (x3 : Vec Ideal S1x32 .f32) (p : Fin 5000) (q : Fin 32) :
    k4_pay1 (F := Ideal) x0 x1 x2 x3 (ix2 p q)
      = Ideal.div (∑ k : Fin 32, x0 (ix2 p k) * x1 (ix2 k q)) (max (x2 (ix2 p (0 : Fin 1))) Cert.Layer.degFloor)
        + x3 (ix2 (0 : Fin 1) q) := by
  unfold k4_pay1
  simp only [shapeCast_self]
  rw [addf_apply, divf_apply, broadcastTo_1b_ab_apply, Cert.RowReduce.broadcastTo_a1_ab_apply, maximumf_apply,
    broadcast_apply]
  have hm := plainDot_fused3.matmul_zero_apply none (truncf .bf16 x0 bitsLt_bf16_f32) (truncf .bf16 x1 bitsLt_bf16_f32) p q
  exact congrArg₂ (· + ·) (congrArg₂ Ideal.div hm rfl) rfl

/-! ## Where each block sits in its array -/

/-- The zero offset of a whole-block access, as a constant function. -/
theorem hz_fused3 : (![0, 0] : Fin 2 → Nat) = fun _ => 0 := funext fun a => by fin_cases a <;> rfl

/-- The index maps over the twenty grid points: the feature, degree and output windows step one block of rows per
    point and stay at column block 0; the weight and bias windows stay at block (0, 0). -/
theorem idx_fused3 : ∀ t : Fin cfg4.N, t.val < 20
    ∧ win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Row `p` of the feature block at point `t` is row `5000 t + p` of the feature array. -/
theorem blk_fused3_feat (c : Dev nD) (t : Fin cfg4.N) (p : Fin 5000) (k : Fin 32) (r : Fin 100000)
    (hr : r.val = t.val * 5000 + p.val) :
    (iblk4 (F := Ideal) V c 0 t : Vec Ideal S5000x32 .f32) (ix2 p k)
      = (V c main_call0_v130 : S100000x32.Idx → EReal) (ix2 r k) := by
  obtain ⟨-, e0, e1, -⟩ := idx_fused3 t
  unfold iblk4
  rw [View.read_apply]
  show V c main_call0_v130 _ = V c main_call0_v130 _
  congr 1
  funext a
  apply Fin.ext
  match a with
  | ⟨0, _⟩ => show win4_0.index t (0 : Fin 2) * 5000 + 1 * p.val = r.val; rw [e0, hr]; omega
  | ⟨1, _⟩ => show win4_0.index t (1 : Fin 2) * 32 + 1 * k.val = k.val; rw [e1]; omega

/-- The weight block at every point is the whole weight matrix. -/
theorem blk_fused3_wt (c : Dev nD) (t : Fin cfg4.N) (k : Fin 32) (q : Fin 32) :
    (iblk4 (F := Ideal) V c 1 t : Vec Ideal S32x32 .f32) (ix2 k q)
      = (V c main_arg14 : S32x32.Idx → EReal) (ix2 k q) := by
  obtain ⟨-, -, -, e0, e1, -⟩ := idx_fused3 t
  unfold iblk4
  rw [View.read_apply]
  show V c main_arg14 _ = V c main_arg14 _
  congr 1
  funext a
  apply Fin.ext
  match a with
  | ⟨0, _⟩ => show win4_1.index t (0 : Fin 2) * 32 + 1 * k.val = k.val; rw [e0]; omega
  | ⟨1, _⟩ => show win4_1.index t (1 : Fin 2) * 32 + 1 * q.val = q.val; rw [e1]; omega

/-- Row `p` of the degree block at point `t` is row `5000 t + p` of the degree column. -/
theorem blk_fused3_deg (c : Dev nD) (t : Fin cfg4.N) (p : Fin 5000) (r : Fin 100000)
    (hr : r.val = t.val * 5000 + p.val) :
    (iblk4 (F := Ideal) V c 2 t : Vec Ideal S5000x1 .f32) (ix2 p (0 : Fin 1))
      = (V c main_call0_v131 : S100000x1.Idx → EReal) (ix2 r (0 : Fin 1)) := by
  obtain ⟨-, -, -, -, -, e0, e1, -⟩ := idx_fused3 t
  unfold iblk4
  rw [View.read_apply]
  show V c main_call0_v131 _ = V c main_call0_v131 _
  congr 1
  funext a
  apply Fin.ext
  match a with
  | ⟨0, _⟩ => show win4_2.index t (0 : Fin 2) * 5000 + 1 * p.val = r.val; rw [e0, hr]; omega
  | ⟨1, _⟩ => show win4_2.index t (1 : Fin 2) * 1 + 1 * 0 = 0; rw [e1]

/-- The bias block at every point is the whole bias row. -/
theorem blk_fused3_bias (c : Dev nD) (t : Fin cfg4.N) (q : Fin 32) :
    (iblk4 (F := Ideal) V c 3 t : Vec Ideal S1x32 .f32) (ix2 (0 : Fin 1) q)
      = (V c main_call0_v132 : S1x32.Idx → EReal) (ix2 (0 : Fin 1) q) := by
  obtain ⟨-, -, -, -, -, -, -, e0, e1, -⟩ := idx_fused3 t
  unfold iblk4
  rw [View.read_apply]
  show V c main_call0_v132 _ = V c main_call0_v132 _
  congr 1
  funext a
  apply Fin.ext
  match a with
  | ⟨0, _⟩ => show win4_3.index t (0 : Fin 2) * 1 + 1 * 0 = 0; rw [e0]
  | ⟨1, _⟩ => show win4_3.index t (1 : Fin 2) * 32 + 1 * q.val = q.val; rw [e1]; omega

/-! ## What a point writes back, the cover, the array -/

/-- What point `t` writes back is block `t` of the closing step of the product, of the arrays as the region finds
    them: the body's value at (p, q) by `pay_fused3_apply`, each input block read at its rows of its array. -/
theorem flushed_fused3 (c : Dev nD) (t : Fin cfg4.N) :
    (dat4 (F := Ideal) V c).flushed 4 t = ((cfg4.win 4).blk t).view.read (Elt Ideal)
      (Cert.Layer.scaleShift (Cert.Layer.matProd (V c main_call0_v130) (V c main_arg14)) (V c main_call0_v131)
        (V c main_call0_v132)) := by
  show (cfg4.win 4).cut (grid4.coords t) ((dat4 V c).after 4 t) = _
  rw [after4_4]
  unfold out4_4
  rw [View.canon_unit_zero hz_fused3]
  simp only [View.ld_unit_zero (S := S5000x32) hz_fused3, View.ld_unit_zero (S := S32x32) hz_fused3,
    View.ld_unit_zero (S := S5000x1) hz_fused3, View.ld_unit_zero (S := S1x32) hz_fused3]
  obtain ⟨ht, -, -, -, -, -, -, -, -, e0, e1⟩ := idx_fused3 t
  funext j
  obtain ⟨p, q, rfl⟩ : ∃ (p : Fin 5000) (q : Fin 32), j = ix2 p q := ⟨j 0, j 1, eq_ix2 j⟩
  have hrow : t.val * 5000 + p.val < 100000 := by have := p.isLt; omega
  show k4_pay1 (F := Ideal) (iblk4 V c 0 t) (iblk4 V c 1 t) (iblk4 V c 2 t) (iblk4 V c 3 t) (ix2 p q)
    = Cert.Layer.scaleShift (Cert.Layer.matProd (V c main_call0_v130) (V c main_arg14)) (V c main_call0_v131)
        (V c main_call0_v132) (((cfg4.win 4).blk t).view.emb (ix2 p q))
  have hemb : ((cfg4.win 4).blk t).view.emb (ix2 p q)
      = (ix2 (⟨t.val * 5000 + p.val, hrow⟩ : Fin 100000) q : S100000x32.Idx) := by
    funext a
    apply Fin.ext
    match a with
    | ⟨0, _⟩ => show win4_4.index t (0 : Fin 2) * 5000 + 1 * p.val = t.val * 5000 + p.val; rw [e0]; omega
    | ⟨1, _⟩ => show win4_4.index t (1 : Fin 2) * 32 + 1 * q.val = q.val; rw [e1]; omega
  rw [hemb, Cert.Layer.scaleShift_apply, Cert.Layer.matProd_apply]
  refine (pay_fused3_apply _ _ _ _ p q).trans ?_
  exact congrArg₂ (· + ·)
    (congrArg₂ Ideal.div
      (Finset.sum_congr rfl fun k _ => congrArg₂ (· * ·) (blk_fused3_feat V c t p k _ rfl) (blk_fused3_wt V c t k q))
      (congrArg₂ max (blk_fused3_deg V c t p _ rfl) rfl))
    (blk_fused3_bias V c t q)

/-- An index of the output array is in point `t`'s block iff each coordinate is in the block's range on its axis. -/
theorem mem_blk_fused3 (t : Fin cfg4.N) (i : S100000x32.Idx) :
    i ∈ ((cfg4.win 4).blk t).view.set ↔ ∀ a : Fin 2, win4_4.index t a * S5000x32.size a ≤ (i a).val
      ∧ (i a).val < win4_4.index t a * S5000x32.size a + S5000x32.size a := by
  show i ∈ ((View.whole main_v0).slice (win4_4.rect t)).set ↔ _
  rw [View.set_slice_whole, Rect.mem_set_unit]
  exact Iff.rfl

/-- Every index of the output array is in some point's block: row `r` is in the block of point `r / 5000`. -/
theorem cover_fused3 (i : S100000x32.Idx) :
    ∃ t : Fin cfg4.N, (cfg4.win 4).flush t = true ∧ i ∈ ((cfg4.win 4).blk t).view.set := by
  have hi0 : (i 0).val < 100000 := idx2_lt0 i
  have hi1 : (i 1).val < 32 := idx2_lt1 i
  obtain ⟨t, ht⟩ : ∃ t : Fin cfg4.N, t.val = (i 0).val / 5000 :=
    ⟨⟨(i 0).val / 5000, by show (i 0).val / 5000 < 20; omega⟩, rfl⟩
  obtain ⟨-, -, -, -, -, -, -, -, -, e0, e1⟩ := idx_fused3 t
  refine ⟨t, flush4_4 t, ?_⟩
  rw [mem_blk_fused3]
  intro a
  match a with
  | ⟨0, _⟩ =>
    show win4_4.index t (0 : Fin 2) * 5000 ≤ (i 0).val ∧ (i 0).val < win4_4.index t (0 : Fin 2) * 5000 + 5000
    rw [e0]; omega
  | ⟨1, _⟩ =>
    show win4_4.index t (1 : Fin 2) * 32 ≤ (i 1).val ∧ (i 1).val < win4_4.index t (1 : Fin 2) * 32 + 32
    rw [e1]; omega

/-- The output array after the region: every row of the product of the features and the weights divided by the
    row's floored degree, the bias row added. -/
theorem fused3 (c : Dev nD) :
    (dat4 (F := Ideal) V c).arrAt 4 cfg4.N
      = Cert.Layer.scaleShift (Cert.Layer.matProd (V c main_call0_v130) (V c main_arg14)) (V c main_call0_v131) (V c main_call0_v132) :=
  (dat4 V c).arrAt_eq_of_cover 4 _ (fun t _ => flushed_fused3 V c t) cover_fused3

end Cert.KernelIdeal.RegionValue

end
-- ==== Proof.KernelValue.lean ====
/-
  The kernel program's result array at the end of the run, as the forward pass of the sixteen arguments.

  The run's buffer contents are known boundary by boundary: after each host stretch and after each dense step. Going
  through the boundaries in order: the first stretch leaves the three edge normalisations and the first weighted
  in-degree; the first dense step the product of the features with the first weight; the next stretch its
  aggregation along the first edge set, the degree as a column and the bias as a row; the second dense step the
  first layer's output; and so on to the fused last step, whose output is the third layer's. A buffer that neither
  a stretch nor a dense step in between writes still holds what it held, in particular every argument.
-/
import proofs.«425108_j11218454577219_3_alg».proof.Proof.Gen.KernelIdeal.Frame
import proofs.«425108_j11218454577219_3_alg».proof.Proof.HostStages
import proofs.«425108_j11218454577219_3_alg».proof.Proof.HostWalk
import proofs.«425108_j11218454577219_3_alg».proof.Proof.HostWalk0a
import proofs.«425108_j11218454577219_3_alg».proof.Proof.HostWalk0b
import proofs.«425108_j11218454577219_3_alg».proof.Proof.HostWalk0c
import proofs.«425108_j11218454577219_3_alg».proof.Proof.HostWalk0d
import proofs.«425108_j11218454577219_3_alg».proof.Proof.Transform1
import proofs.«425108_j11218454577219_3_alg».proof.Proof.Transform2
import proofs.«425108_j11218454577219_3_alg».proof.Proof.Closing1
import proofs.«425108_j11218454577219_3_alg».proof.Proof.Closing2
import proofs.«425108_j11218454577219_3_alg».proof.Proof.Fused3

set_option maxRecDepth 16384

noncomputable section

namespace Cert.KernelIdeal.OutValue

open Idealize.ShloMosaic Idealize.ShloMosaic.TcCoe Idealize.SL.Sem
open Cert.KernelIdeal Cert.KernelIdeal.Gen Cert.KernelIdeal.Stage Cert.KernelIdeal.HostWalk

variable (m : (ℓ : Loc nD τ sig) → Buf (Elt Ideal) ℓ) (ρ : Dev nD → PrngReg)

/-! ## The launch and the first stretch -/

/-- At launch a buffer holds its launch contents. -/
theorem at0 (c : Dev nD) (b : Ref sig .tc) : W0 m ρ c (Proc.devRef .tc b) = m ((c : Thread nD τ).loc b) := rfl

/-- A buffer the first stretch does not write still holds its launch contents after it. -/
theorem at1 (c : Dev nD) (b : Ref sig .tc) (h : b ∉ written0) : W1 m ρ c (Proc.devRef .tc b) = m ((c : Thread nD τ).loc b) :=
  (keep0 (W0 m ρ c) b h).trans (at0 m ρ c b)

/-- The first edge set's normalised weights. -/
theorem at1_nw1 (c : Dev nD) : W1 m ρ c (Proc.devRef .tc main_call0_v24) = (edgeNorm (m ((c : Thread nD τ).loc main_arg1)) (m ((c : Thread nD τ).loc main_arg2)) (m ((c : Thread nD τ).loc main_arg3))) :=
  s0_nw1 (W0 m ρ c) (at0 m ρ c main_arg1) (at0 m ρ c main_arg2) (at0 m ρ c main_arg3)

/-- The second edge set's normalised weights. -/
theorem at1_nw2 (c : Dev nD) : W1 m ρ c (Proc.devRef .tc main_call0_v49) = (edgeNorm (m ((c : Thread nD τ).loc main_arg4)) (m ((c : Thread nD τ).loc main_arg5)) (m ((c : Thread nD τ).loc main_arg6))) :=
  s0_nw2 (W0 m ρ c) (at0 m ρ c main_arg4) (at0 m ρ c main_arg5) (at0 m ρ c main_arg6)

/-- The third edge set's normalised weights. -/
theorem at1_nw3 (c : Dev nD) : W1 m ρ c (Proc.devRef .tc main_call0_v74) = (edgeNorm (m ((c : Thread nD τ).loc main_arg7)) (m ((c : Thread nD τ).loc main_arg8)) (m ((c : Thread nD τ).loc main_arg9))) :=
  s0_nw3 (W0 m ρ c) (at0 m ρ c main_arg7) (at0 m ρ c main_arg8) (at0 m ρ c main_arg9)

/-- The first edge set's weighted in-degree. -/
theorem at1_deg1 (c : Dev nD) : W1 m ρ c (Proc.devRef .tc main_call0_v77) = degree (m ((c : Thread nD τ).loc main_arg2)) (edgeNorm (m ((c : Thread nD τ).loc main_arg1)) (m ((c : Thread nD τ).loc main_arg2)) (m ((c : Thread nD τ).loc main_arg3))) :=
  s0_deg1 (W0 m ρ c) (at0 m ρ c main_arg1) (at0 m ρ c main_arg2) (at0 m ρ c main_arg3)

/-! ## Buffers nothing writes between the first stretch and a later boundary -/

/-- Through the first dense step. -/
theorem walk2 (c : Dev nD) (b : Ref sig .tc) (h2 : ∀ w, Pipeline.arrRef spec0 w ≠ b) :
    W2 m ρ c (Proc.devRef .tc b) = W1 m ρ c (Proc.devRef .tc b) := W2_of_ne m ρ c b h2

/-- Through the second stretch and the second dense step. -/
theorem walk4 (c : Dev nD) (b : Ref sig .tc) (h2 : ∀ w, Pipeline.arrRef spec0 w ≠ b) (h3 : b ∉ written1)
    (h4 : ∀ w, Pipeline.arrRef spec1 w ≠ b) : W4 m ρ c (Proc.devRef .tc b) = W1 m ρ c (Proc.devRef .tc b) :=
  (W4_of_ne m ρ c b h4).trans ((keep1 (W2 m ρ c) b h3).trans (walk2 m ρ c b h2))

/-- Through the third stretch. -/
theorem walk5 (c : Dev nD) (b : Ref sig .tc) (h2 : ∀ w, Pipeline.arrRef spec0 w ≠ b) (h3 : b ∉ written1)
    (h4 : ∀ w, Pipeline.arrRef spec1 w ≠ b) (h5 : b ∉ written2) : W5 m ρ c (Proc.devRef .tc b) = W1 m ρ c (Proc.devRef .tc b) :=
  (keep2 (W4 m ρ c) b h5).trans (walk4 m ρ c b h2 h3 h4)

/-- Through the third dense step. -/
theorem walk6 (c : Dev nD) (b : Ref sig .tc) (h2 : ∀ w, Pipeline.arrRef spec0 w ≠ b) (h3 : b ∉ written1)
    (h4 : ∀ w, Pipeline.arrRef spec1 w ≠ b) (h5 : b ∉ written2) (h6 : ∀ w, Pipeline.arrRef spec2 w ≠ b) :
    W6 m ρ c (Proc.devRef .tc b) = W1 m ρ c (Proc.devRef .tc b) :=
  (W6_of_ne m ρ c b h6).trans (walk5 m ρ c b h2 h3 h4 h5)

/-- Through the fourth stretch and the fourth dense step. -/
theorem walk8 (c : Dev nD) (b : Ref sig .tc) (h2 : ∀ w, Pipeline.arrRef spec0 w ≠ b) (h3 : b ∉ written1)
    (h4 : ∀ w, Pipeline.arrRef spec1 w ≠ b) (h5 : b ∉ written2) (h6 : ∀ w, Pipeline.arrRef spec2 w ≠ b)
    (h7 : b ∉ written3) (h8 : ∀ w, Pipeline.arrRef spec3 w ≠ b) : W8 m ρ c (Proc.devRef .tc b) = W1 m ρ c (Proc.devRef .tc b) :=
  (W8_of_ne m ρ c b h8).trans ((keep3 (W6 m ρ c) b h7).trans (walk6 m ρ c b h2 h3 h4 h5 h6))

/-- Through the last stretch. -/
theorem walk9 (c : Dev nD) (b : Ref sig .tc) (h2 : ∀ w, Pipeline.arrRef spec0 w ≠ b) (h3 : b ∉ written1)
    (h4 : ∀ w, Pipeline.arrRef spec1 w ≠ b) (h5 : b ∉ written2) (h6 : ∀ w, Pipeline.arrRef spec2 w ≠ b)
    (h7 : b ∉ written3) (h8 : ∀ w, Pipeline.arrRef spec3 w ≠ b) (h9 : b ∉ written4) :
    W9 m ρ c (Proc.devRef .tc b) = W1 m ρ c (Proc.devRef .tc b) :=
  (keep4 (W8 m ρ c) b h9).trans (walk8 m ρ c b h2 h3 h4 h5 h6 h7 h8)

/-! ## The first layer -/

/-- The first dense step leaves the features times the first weight. -/
theorem at2_h (c : Dev nD) : W2 m ρ c (Proc.devRef .tc main_call0_v78) = Cert.Layer.matProd (m ((c : Thread nD τ).loc main_arg0)) (m ((c : Thread nD τ).loc main_arg10)) := by
  have e := Cert.KernelIdeal.RegionValue.transform1 (V1 m ρ) c
  rw [show V1 m ρ c main_arg0 = (m ((c : Thread nD τ).loc main_arg0)) from at1 m ρ c main_arg0 (by decide),
    show V1 m ρ c main_arg10 = (m ((c : Thread nD τ).loc main_arg10)) from at1 m ρ c main_arg10 (by decide)] at e
  exact (W2_arr m ρ c 2).trans e

/-- The second stretch leaves the product aggregated along the first edge set. -/
theorem at3_agg (c : Dev nD) : W3 m ρ c (Proc.devRef .tc main_call0_v91)
    = aggregate64 (Cert.Layer.matProd (m ((c : Thread nD τ).loc main_arg0)) (m ((c : Thread nD τ).loc main_arg10))) (m ((c : Thread nD τ).loc main_arg1)) (m ((c : Thread nD τ).loc main_arg2)) (edgeNorm (m ((c : Thread nD τ).loc main_arg1)) (m ((c : Thread nD τ).loc main_arg2)) (m ((c : Thread nD τ).loc main_arg3))) :=
  s1_agg (W2 m ρ c) (at2_h m ρ c) ((walk2 m ρ c main_arg1 (by decide)).trans (at1 m ρ c main_arg1 (by decide))) ((walk2 m ρ c main_arg2 (by decide)).trans (at1 m ρ c main_arg2 (by decide)))
    ((walk2 m ρ c main_call0_v24 (by decide)).trans (at1_nw1 m ρ c))

/-- ... the first weighted in-degree as a column ... -/
theorem at3_col (c : Dev nD) : W3 m ρ c (Proc.devRef .tc main_call0_v92) = column (degree (m ((c : Thread nD τ).loc main_arg2)) (edgeNorm (m ((c : Thread nD τ).loc main_arg1)) (m ((c : Thread nD τ).loc main_arg2)) (m ((c : Thread nD τ).loc main_arg3)))) :=
  s1_col (W2 m ρ c) ((walk2 m ρ c main_call0_v77 (by decide)).trans (at1_deg1 m ρ c))

/-- ... and the first bias as a row. -/
theorem at3_row (c : Dev nD) : W3 m ρ c (Proc.devRef .tc main_call0_v93) = row64 (m ((c : Thread nD τ).loc main_arg11)) :=
  s1_row (W2 m ρ c) ((walk2 m ρ c main_arg11 (by decide)).trans (at1 m ρ c main_arg11 (by decide)))

/-- The second dense step leaves the first layer's output. -/
theorem at4_h1 (c : Dev nD) : W4 m ρ c (Proc.devRef .tc main_call0_v94) = (layer1 (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg11))) := by
  have e := Cert.KernelIdeal.RegionValue.closing1 (V3 m ρ) c
  rw [show V3 m ρ c main_call0_v91 = _ from at3_agg m ρ c, show V3 m ρ c main_call0_v92 = _ from at3_col m ρ c,
    show V3 m ρ c main_call0_v93 = _ from at3_row m ρ c] at e
  exact (W4_arr m ρ c 3).trans e

/-! ## The second layer -/

/-- The third stretch leaves the second weighted in-degree ... -/
theorem at5_deg2 (c : Dev nD) : W5 m ρ c (Proc.devRef .tc main_call0_v97) = degree (m ((c : Thread nD τ).loc main_arg5)) (edgeNorm (m ((c : Thread nD τ).loc main_arg4)) (m ((c : Thread nD τ).loc main_arg5)) (m ((c : Thread nD τ).loc main_arg6))) :=
  s2_deg (W4 m ρ c) ((walk4 m ρ c main_arg5 (by decide) (by decide) (by decide)).trans (at1 m ρ c main_arg5 (by decide))) ((walk4 m ρ c main_call0_v49 (by decide) (by decide) (by decide)).trans (at1_nw2 m ρ c))

/-- ... and the first layer's output alone. -/
theorem at5_h1 (c : Dev nD) : W5 m ρ c (Proc.devRef .tc main_call0_v94) = (layer1 (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg11))) :=
  (keep2 (W4 m ρ c) main_call0_v94 (by decide)).trans (at4_h1 m ρ c)

/-- The third dense step leaves the first layer's output times the second weight. -/
theorem at6_h (c : Dev nD) : W6 m ρ c (Proc.devRef .tc main_call0_v98) = Cert.Layer.matProd (layer1 (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg11))) (m ((c : Thread nD τ).loc main_arg12)) := by
  have e := Cert.KernelIdeal.RegionValue.transform2 (V5 m ρ) c
  rw [show V5 m ρ c main_call0_v94 = _ from at5_h1 m ρ c,
    show V5 m ρ c main_arg12 = (m ((c : Thread nD τ).loc main_arg12)) from ((walk5 m ρ c main_arg12 (by decide) (by decide) (by decide) (by decide)).trans (at1 m ρ c main_arg12 (by decide)))] at e
  exact (W6_arr m ρ c 2).trans e

/-- The fourth stretch leaves that product aggregated along the second edge set ... -/
theorem at7_agg (c : Dev nD) : W7 m ρ c (Proc.devRef .tc main_call0_v111)
    = aggregate32 (Cert.Layer.matProd (layer1 (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg11))) (m ((c : Thread nD τ).loc main_arg12))) (m ((c : Thread nD τ).loc main_arg4)) (m ((c : Thread nD τ).loc main_arg5)) (edgeNorm (m ((c : Thread nD τ).loc main_arg4)) (m ((c : Thread nD τ).loc main_arg5)) (m ((c : Thread nD τ).loc main_arg6))) :=
  s3_agg (W6 m ρ c) (at6_h m ρ c) ((walk6 m ρ c main_arg4 (by decide) (by decide) (by decide) (by decide) (by decide)).trans (at1 m ρ c main_arg4 (by decide))) ((walk6 m ρ c main_arg5 (by decide) (by decide) (by decide) (by decide) (by decide)).trans (at1 m ρ c main_arg5 (by decide)))
    ((walk6 m ρ c main_call0_v49 (by decide) (by decide) (by decide) (by decide) (by decide)).trans (at1_nw2 m ρ c))

/-- ... the second weighted in-degree as a column ... -/
theorem at7_col (c : Dev nD) : W7 m ρ c (Proc.devRef .tc main_call0_v112) = column (degree (m ((c : Thread nD τ).loc main_arg5)) (edgeNorm (m ((c : Thread nD τ).loc main_arg4)) (m ((c : Thread nD τ).loc main_arg5)) (m ((c : Thread nD τ).loc main_arg6)))) :=
  s3_col (W6 m ρ c) ((W6_of_ne m ρ c main_call0_v97 (by decide)).trans (at5_deg2 m ρ c))

/-- ... and the second bias as a row. -/
theorem at7_row (c : Dev nD) : W7 m ρ c (Proc.devRef .tc main_call0_v113) = row32 (m ((c : Thread nD τ).loc main_arg13)) :=
  s3_row (W6 m ρ c) ((walk6 m ρ c main_arg13 (by decide) (by decide) (by decide) (by decide) (by decide)).trans (at1 m ρ c main_arg13 (by decide)))

/-- The fourth dense step leaves the second layer's output. -/
theorem at8_h2 (c : Dev nD) : W8 m ρ c (Proc.devRef .tc main_call0_v114) = (layer2 (layer1 (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg11))) (m ((c : Thread nD τ).loc main_arg4)) (m ((c : Thread nD τ).loc main_arg5)) (m ((c : Thread nD τ).loc main_arg6)) (m ((c : Thread nD τ).loc main_arg12)) (m ((c : Thread nD τ).loc main_arg13))) := by
  have e := Cert.KernelIdeal.RegionValue.closing2 (V7 m ρ) c
  rw [show V7 m ρ c main_call0_v111 = _ from at7_agg m ρ c, show V7 m ρ c main_call0_v112 = _ from at7_col m ρ c,
    show V7 m ρ c main_call0_v113 = _ from at7_row m ρ c] at e
  exact (W8_arr m ρ c 3).trans e

/-! ## The third layer -/

/-- The last stretch leaves the second layer's output aggregated along the third edge set ... -/
theorem at9_agg (c : Dev nD) : W9 m ρ c (Proc.devRef .tc main_call0_v130) = aggregate32 (layer2 (layer1 (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg11))) (m ((c : Thread nD τ).loc main_arg4)) (m ((c : Thread nD τ).loc main_arg5)) (m ((c : Thread nD τ).loc main_arg6)) (m ((c : Thread nD τ).loc main_arg12)) (m ((c : Thread nD τ).loc main_arg13))) (m ((c : Thread nD τ).loc main_arg7)) (m ((c : Thread nD τ).loc main_arg8)) (edgeNorm (m ((c : Thread nD τ).loc main_arg7)) (m ((c : Thread nD τ).loc main_arg8)) (m ((c : Thread nD τ).loc main_arg9))) :=
  s4_agg (W8 m ρ c) (at8_h2 m ρ c) ((walk8 m ρ c main_arg7 (by decide) (by decide) (by decide) (by decide) (by decide) (by decide) (by decide)).trans (at1 m ρ c main_arg7 (by decide))) ((walk8 m ρ c main_arg8 (by decide) (by decide) (by decide) (by decide) (by decide) (by decide) (by decide)).trans (at1 m ρ c main_arg8 (by decide)))
    ((walk8 m ρ c main_call0_v74 (by decide) (by decide) (by decide) (by decide) (by decide) (by decide) (by decide)).trans (at1_nw3 m ρ c))

/-- ... the third weighted in-degree as a column ... -/
theorem at9_col (c : Dev nD) : W9 m ρ c (Proc.devRef .tc main_call0_v131) = column (degree (m ((c : Thread nD τ).loc main_arg8)) (edgeNorm (m ((c : Thread nD τ).loc main_arg7)) (m ((c : Thread nD τ).loc main_arg8)) (m ((c : Thread nD τ).loc main_arg9)))) :=
  s4_col (W8 m ρ c) ((walk8 m ρ c main_arg8 (by decide) (by decide) (by decide) (by decide) (by decide) (by decide) (by decide)).trans (at1 m ρ c main_arg8 (by decide))) ((walk8 m ρ c main_call0_v74 (by decide) (by decide) (by decide) (by decide) (by decide) (by decide) (by decide)).trans (at1_nw3 m ρ c))

/-- ... and the third bias as a row. -/
theorem at9_row (c : Dev nD) : W9 m ρ c (Proc.devRef .tc main_call0_v132) = row32 (m ((c : Thread nD τ).loc main_arg15)) :=
  s4_row (W8 m ρ c) ((walk8 m ρ c main_arg15 (by decide) (by decide) (by decide) (by decide) (by decide) (by decide) (by decide)).trans (at1 m ρ c main_arg15 (by decide)))

/-- THE RESULT: after the fused last step the result array holds the forward pass of the arguments. -/
theorem out_value (c : Dev nD) : W10 m ρ c (Proc.devRef .tc main_v0)
    = forward (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  have e := Cert.KernelIdeal.RegionValue.fused3 (V9 m ρ) c
  rw [show V9 m ρ c main_call0_v130 = _ from at9_agg m ρ c,
    show V9 m ρ c main_arg14 = (m ((c : Thread nD τ).loc main_arg14)) from ((walk9 m ρ c main_arg14 (by decide) (by decide) (by decide) (by decide) (by decide) (by decide) (by decide) (by decide)).trans (at1 m ρ c main_arg14 (by decide))),
    show V9 m ρ c main_call0_v131 = _ from at9_col m ρ c, show V9 m ρ c main_call0_v132 = _ from at9_row m ρ c] at e
  exact (W10_arr m ρ c 4).trans e

end Cert.KernelIdeal.OutValue

end
-- ==== Proof.RefEdgeStages.lean ====
/-
  The host side of the graph convolution on one edge set, stage by stage, as pure functions of whole arrays at the
  extended reals. For endpoints `s` (sources), `e` (destinations) and weights `w`:
  * `startCol s`: the column of gather start indices for endpoints `s`, a negative endpoint wrapped by the node count;
  * `degree e w`: the weighted degree of every node, the sum of `w` over the edges whose endpoint `e` is that node;
  * `edgeNorm s e w`: the symmetric normalisation `w / sqrt (max (outdeg s · indeg e) floor)`;
  * `aggregate h s e nw`: every node's sum, over the edges that end in it, of the source's feature row scaled by the
    edge's normalised weight.
-/
import proofs.«425108_j11218454577219_3_alg».proof.Proof.Gen.ReferenceIdeal
import Idealize.ShloMosaic.PureOps.Ideal

noncomputable section

namespace Cert.ReferenceIdeal.Stage

open Idealize.ShloMosaic Cert.ReferenceIdeal Cert.ReferenceIdeal.Facts₀

/-- Gather start indices for edge endpoints: a negative endpoint is wrapped by the node count, and the vector is laid
    out as a column. -/
def startCol (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- Weighted degree: the edge weights summed into their endpoints' nodes. -/
def degree (e : IVec S1600000 32) (w : FVec Ideal S1600000 .f32) : FVec Ideal S100000 .f32 :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 e) w

/-- Edge weights divided by the square root of the floored product of the source's weighted out-degree and the
    destination's weighted in-degree. -/
def edgeNorm (s e : IVec S1600000 32) (w : FVec Ideal S1600000 .f32) : FVec Ideal S1600000 .f32 :=
  Host.divf w (Host.sqrt (maximumf
    (mulf (Host.gather gather_S100000_S1600000x1_S1600000_n_0_n_n_0_1_1 (degree s w) (startCol s))
      (Host.gather gather_S100000_S1600000x1_S1600000_n_0_n_n_0_1_1 (degree e w) (startCol e)))
    (broadcastInDim S1600000 ![] bcast_S_S1600000 (constant (F := Ideal) S_ .f32 0x2B8CBCCC#32))))

/-- Aggregation of 64-wide rows: the source rows, each scaled by its edge's weight, summed into the destinations. -/
def aggregate64 (h : FVec Ideal S100000x64 .f32) (s e : IVec S1600000 32) (nw : FVec Ideal S1600000 .f32) :
    FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 e)
    (mulf (Host.gather gather_S100000x64_S1600000x1_S1600000x64_1_0_n_n_0_1_164 h (startCol s))
      (broadcastInDim S1600000x64 ![0, 1] bcast_S1600000x1_S1600000x64_0_1
        (broadcastInDim S1600000x1 ![0] bcast_S1600000_S1600000x1_0 nw)))

/-- Aggregation of 32-wide rows. -/
def aggregate32 (h : FVec Ideal S100000x32 .f32) (s e : IVec S1600000 32) (nw : FVec Ideal S1600000 .f32) :
    FVec Ideal S100000x32 .f32 :=
  Host.scatterAdd scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0 e)
    (mulf (Host.gather gather_S100000x32_S1600000x1_S1600000x32_1_0_n_n_0_1_132 h (startCol s))
      (broadcastInDim S1600000x32 ![0, 1] bcast_S1600000x1_S1600000x32_0_1
        (broadcastInDim S1600000x1 ![0] bcast_S1600000_S1600000x1_0 nw)))

end Cert.ReferenceIdeal.Stage

end
-- ==== Proof.RefStages.lean ====
/-
  The reference's forward pass as one function of its sixteen arguments, over the edge stages: each of the first two
  layers multiplies by its weight matrix, aggregates along the edges, divides every row by the floored weighted
  in-degree and adds the bias; the third aggregates first and multiplies after. The closing step is spelled as the
  reference computes it: the floored degree vector laid out as a column and repeated along the rows' entries, the
  bias laid out as a row and repeated down the rows.
-/
import proofs.«425108_j11218454577219_3_alg».proof.Proof.RefEdgeStages

noncomputable section

namespace Cert.ReferenceIdeal.Stage

open Idealize.ShloMosaic Cert.ReferenceIdeal Cert.ReferenceIdeal.Facts₀

/-- Rows of a 64-wide array divided by the floored degree, the bias added. -/
def closing64 (A : FVec Ideal S100000x64 .f32) (d : FVec Ideal S100000 .f32) (b : FVec Ideal S64 .f32) :
    FVec Ideal S100000x64 .f32 :=
  addf
    (Host.divf A (broadcastInDim S100000x64 ![0, 1] bcast_S100000x1_S100000x64_0_1
      (broadcastInDim S100000x1 ![0] bcast_S100000_S100000x1_0
        (maximumf d (broadcastInDim S100000 ![] bcast_S_S100000 (constant (F := Ideal) S_ .f32 0x2B8CBCCC#32))))))
    (broadcastInDim S100000x64 ![0, 1] bcast_S1x64_S100000x64_0_1 (broadcastInDim S1x64 ![1] bcast_S64_S1x64_1 b))

/-- Rows of a 32-wide array divided by the floored degree, the bias added. -/
def closing32 (A : FVec Ideal S100000x32 .f32) (d : FVec Ideal S100000 .f32) (b : FVec Ideal S32 .f32) :
    FVec Ideal S100000x32 .f32 :=
  addf
    (Host.divf A (broadcastInDim S100000x32 ![0, 1] bcast_S100000x1_S100000x32_0_1
      (broadcastInDim S100000x1 ![0] bcast_S100000_S100000x1_0
        (maximumf d (broadcastInDim S100000 ![] bcast_S_S100000 (constant (F := Ideal) S_ .f32 0x2B8CBCCC#32))))))
    (broadcastInDim S100000x32 ![0, 1] bcast_S1x32_S100000x32_0_1 (broadcastInDim S1x32 ![1] bcast_S32_S1x32_1 b))

/-- The three layers in turn. -/
def forward (x : FVec Ideal S100000x128 .f32) (s1 e1 : IVec S1600000 32) (w1 : FVec Ideal S1600000 .f32)
    (s2 e2 : IVec S1600000 32) (w2 : FVec Ideal S1600000 .f32) (s3 e3 : IVec S1600000 32) (w3 : FVec Ideal S1600000 .f32)
    (W1 : FVec Ideal S128x64 .f32) (b1 : FVec Ideal S64 .f32) (W2 : FVec Ideal S64x32 .f32) (b2 : FVec Ideal S32 .f32)
    (W3 : FVec Ideal S32x32 .f32) (b3 : FVec Ideal S32 .f32) : FVec Ideal S100000x32 .f32 :=
  closing32
    (Host.dotGeneral dot_S100000x32_S32x32_S100000x32_1_0_0_1_n_n none
      (aggregate32
        (closing32
          (aggregate32
            (Host.dotGeneral dot_S100000x64_S64x32_S100000x32_1_0_0_1_n_n none
              (closing64
                (aggregate64 (Host.dotGeneral dot_S100000x128_S128x64_S100000x64_1_0_0_1_n_n none x W1) s1 e1 (edgeNorm s1 e1 w1))
                (degree e1 (edgeNorm s1 e1 w1)) b1)
              W2)
            s2 e2 (edgeNorm s2 e2 w2))
          (degree e2 (edgeNorm s2 e2 w2)) b2)
        s3 e3 (edgeNorm s3 e3 w3))
      W3)
    (degree e3 (edgeNorm s3 e3 w3)) b3

end Cert.ReferenceIdeal.Stage

end
-- ==== Proof.RefValue.lean ====
/-
  The reference's run, read as the forward pass: every execution of the reference ends with its result array at
  `Stage.forward` of the sixteen argument arrays as launched, and the arguments unchanged. The run's own result term is
  the same composition of host operations written out in full; naming the edge normalisations, degrees, aggregations
  and closing steps in it gives `Stage.forward`.
-/
import proofs.«425108_j11218454577219_3_alg».proof.Proof.RefStages
import proofs.«425108_j11218454577219_3_alg».proof.Proof.Gen.ReferenceIdeal.Run

set_option maxRecDepth 16384

noncomputable section

namespace Cert.ReferenceIdeal.RefValue

open Idealize.ShloMosaic Idealize.ShloMosaic.TcCoe Idealize.SL.Sem
open Cert.ReferenceIdeal Cert.ReferenceIdeal.Gen Cert.ReferenceIdeal.Stage

/-- The reference ends with its result at the forward pass of its arguments, the arguments unchanged. -/
theorem run_forward (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v149) = forward (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) := by
  refine (θ_run defs _ _).mono (fun r h c => ⟨(h c).1.trans ?_, (h c).2⟩) (Cert.ReferenceIdeal.Value.run (F := Ideal) m ρ)
  unfold Cert.ReferenceIdeal.Value.res_main_v141 Cert.ReferenceIdeal.Value.res_main_v74 Cert.ReferenceIdeal.Value.res_main_v49
    Cert.ReferenceIdeal.Value.res_main_v24
  rfl

end Cert.ReferenceIdeal.RefValue

end
-- ==== Proof.RefDense.lean ====
/-
  The reference's dense steps over the extended reals, read as plain mathematics.

  * Each of the three matrix products the reference computes is the plain matrix product: element (a, b) is the sum
    over k of X (a, k) * W (k, b).
  * The closing step of a layer, spelled by the reference with the floored degree vector laid out as a column and
    repeated along each row, and the bias laid out as a row and repeated down the rows, is the map that divides
    element (a, b) by the larger of node a's degree and the floor, and then adds entry b of the bias.
-/
import proofs.«425108_j11218454577219_3_alg».proof.Proof.RefStages
import proofs.«425108_j11218454577219_3_alg».proof.Proof.Layer
import proofs.«425108_j11218454577219_3_alg».proof.Proof.LibPlainDot
import proofs.«425108_j11218454577219_3_alg».proof.Proof.LibRowReduce
import Idealize.ShloMosaic.Lib.Pipeline.Value
import Idealize.ShloMosaic.Lib.ValueLayout
import Idealize.ShloMosaic.PureOps.Ideal.Laws

noncomputable section

namespace Cert.ReferenceIdeal.Stage

open Idealize.ShloMosaic Idealize.ShloMosaic.ValueIdx Cert.ReferenceIdeal Cert.ReferenceIdeal.Facts₀

section Layout
variable {α : Type}

/-- A scalar repeated over a vector reads the scalar everywhere. -/
theorem splat_apply {N : ℕ} (c : (⟨0, ![]⟩ : Shape).Idx → α)
    (h : (⟨0, ![]⟩ : Shape).BroadcastsInDim ⟨1, ![N]⟩ (![] : Fin 0 → Fin 1)) (a : Fin N) :
    broadcastInDim ⟨1, ![N]⟩ ![] h c (ix1 a) = c ix0 :=
  broadcastInDim_apply _ h c (ix1 a) ix0 fun x => x.elim0

/-- A vector laid out as a column and repeated along each row reads, at (a, b), the vector at a. -/
theorem colRepeat_apply {N D : ℕ} (v : (⟨1, ![N]⟩ : Shape).Idx → α)
    (h1 : (⟨1, ![N]⟩ : Shape).BroadcastsInDim ⟨2, ![N, 1]⟩ (![0] : Fin 1 → Fin 2))
    (h2 : (⟨2, ![N, 1]⟩ : Shape).BroadcastsInDim ⟨2, ![N, D]⟩ (![0, 1] : Fin 2 → Fin 2)) (a : Fin N) (b : Fin D) :
    broadcastInDim ⟨2, ![N, D]⟩ ![0, 1] h2 (broadcastInDim ⟨2, ![N, 1]⟩ ![0] h1 v) (ix2 a b) = v (ix1 a) := by
  have e2 : broadcastInDim ⟨2, ![N, D]⟩ ![0, 1] h2 (broadcastInDim ⟨2, ![N, 1]⟩ ![0] h1 v) (ix2 a b)
      = broadcastInDim ⟨2, ![N, 1]⟩ ![0] h1 v (ix2 a (0 : Fin 1)) := by
    refine broadcastInDim_apply _ h2 _ (ix2 a b) (ix2 a (0 : Fin 1)) fun ax => ?_
    match ax with
    | ⟨0, _⟩ =>
      show a.val = if N = 1 then 0 else a.val
      split
      · have := a.isLt; omega
      · rfl
    | ⟨1, _⟩ => rfl
  have e1 : broadcastInDim ⟨2, ![N, 1]⟩ ![0] h1 v (ix2 a (0 : Fin 1)) = v (ix1 a) := by
    refine broadcastInDim_apply _ h1 v (ix2 a (0 : Fin 1)) (ix1 a) fun ax => ?_
    match ax with
    | ⟨0, _⟩ =>
      show a.val = if N = 1 then 0 else a.val
      split
      · have := a.isLt; omega
      · rfl
  exact e2.trans e1

/-- A vector laid out as a row and repeated down the rows reads, at (a, b), the vector at b. -/
theorem rowRepeat_apply {N D : ℕ} (v : (⟨1, ![D]⟩ : Shape).Idx → α)
    (h1 : (⟨1, ![D]⟩ : Shape).BroadcastsInDim ⟨2, ![1, D]⟩ (![1] : Fin 1 → Fin 2))
    (h2 : (⟨2, ![1, D]⟩ : Shape).BroadcastsInDim ⟨2, ![N, D]⟩ (![0, 1] : Fin 2 → Fin 2)) (a : Fin N) (b : Fin D) :
    broadcastInDim ⟨2, ![N, D]⟩ ![0, 1] h2 (broadcastInDim ⟨2, ![1, D]⟩ ![1] h1 v) (ix2 a b) = v (ix1 b) := by
  have e2 : broadcastInDim ⟨2, ![N, D]⟩ ![0, 1] h2 (broadcastInDim ⟨2, ![1, D]⟩ ![1] h1 v) (ix2 a b)
      = broadcastInDim ⟨2, ![1, D]⟩ ![1] h1 v (ix2 (0 : Fin 1) b) := by
    refine broadcastInDim_apply _ h2 _ (ix2 a b) (ix2 (0 : Fin 1) b) fun ax => ?_
    match ax with
    | ⟨0, _⟩ => rfl
    | ⟨1, _⟩ =>
      show b.val = if D = 1 then 0 else b.val
      split
      · have := b.isLt; omega
      · rfl
  have e1 : broadcastInDim ⟨2, ![1, D]⟩ ![1] h1 v (ix2 (0 : Fin 1) b) = v (ix1 b) := by
    refine broadcastInDim_apply _ h1 v (ix2 (0 : Fin 1) b) (ix1 b) fun ax => ?_
    match ax with
    | ⟨0, _⟩ =>
      show b.val = if D = 1 then 0 else b.val
      split
      · have := b.isLt; omega
      · rfl
  exact e2.trans e1

end Layout

/-- The first layer's product is the plain matrix product. -/
theorem dot1_eq (X : FVec Ideal S100000x128 .f32) (W : FVec Ideal S128x64 .f32) :
    Host.dotGeneral dot_S100000x128_S128x64_S100000x64_1_0_0_1_n_n none X W = Cert.Layer.matProd X W := by
  funext i
  obtain ⟨a, b, rfl⟩ : ∃ (a : Fin 100000) (b : Fin 64), i = ix2 a b := ⟨i 0, i 1, eq_ix2 i⟩
  rw [Cert.Layer.matProd_apply]
  exact Cert.Lib.PlainDot.dotGeneral_apply ⟨rfl, rfl, rfl, rfl, rfl, rfl⟩ none _ X W a b

/-- The second layer's product is the plain matrix product. -/
theorem dot2_eq (X : FVec Ideal S100000x64 .f32) (W : FVec Ideal S64x32 .f32) :
    Host.dotGeneral dot_S100000x64_S64x32_S100000x32_1_0_0_1_n_n none X W = Cert.Layer.matProd X W := by
  funext i
  obtain ⟨a, b, rfl⟩ : ∃ (a : Fin 100000) (b : Fin 32), i = ix2 a b := ⟨i 0, i 1, eq_ix2 i⟩
  rw [Cert.Layer.matProd_apply]
  exact Cert.Lib.PlainDot.dotGeneral_apply ⟨rfl, rfl, rfl, rfl, rfl, rfl⟩ none _ X W a b

/-- The third layer's product is the plain matrix product. -/
theorem dot3_eq (X : FVec Ideal S100000x32 .f32) (W : FVec Ideal S32x32 .f32) :
    Host.dotGeneral dot_S100000x32_S32x32_S100000x32_1_0_0_1_n_n none X W = Cert.Layer.matProd X W := by
  funext i
  obtain ⟨a, b, rfl⟩ : ∃ (a : Fin 100000) (b : Fin 32), i = ix2 a b := ⟨i 0, i 1, eq_ix2 i⟩
  rw [Cert.Layer.matProd_apply]
  exact Cert.Lib.PlainDot.dotGeneral_apply ⟨rfl, rfl, rfl, rfl, rfl, rfl⟩ none _ X W a b

/-- The 64-wide closing step divides element (a, b) by the floored degree of node a and adds entry b of the bias. -/
theorem closing64_eq (A : FVec Ideal S100000x64 .f32) (d : FVec Ideal S100000 .f32) (b : FVec Ideal S64 .f32)
    (h1 : S100000.ShapeCasts S100000x1) (h2 : S64.ShapeCasts S1x64) :
    closing64 A d b = Cert.Layer.scaleShift A (shapeCast S100000x1 d h1) (shapeCast S1x64 b h2) := by
  funext i
  obtain ⟨r, c, rfl⟩ : ∃ (r : Fin 100000) (c : Fin 64), i = ix2 r c := ⟨i 0, i 1, eq_ix2 i⟩
  rw [Cert.Layer.scaleShift_apply, Cert.RowReduce.shapeCast_a_a1_apply, shapeCast_a_1a_apply]
  unfold closing64
  rw [addf_apply]
  show Ideal.div (A (ix2 r c)) _ + _ = _
  rw [colRepeat_apply, rowRepeat_apply, maximumf_apply, splat_apply, constant_apply]

/-- The 32-wide closing step divides element (a, b) by the floored degree of node a and adds entry b of the bias. -/
theorem closing32_eq (A : FVec Ideal S100000x32 .f32) (d : FVec Ideal S100000 .f32) (b : FVec Ideal S32 .f32)
    (h1 : S100000.ShapeCasts S100000x1) (h2 : S32.ShapeCasts S1x32) :
    closing32 A d b = Cert.Layer.scaleShift A (shapeCast S100000x1 d h1) (shapeCast S1x32 b h2) := by
  funext i
  obtain ⟨r, c, rfl⟩ : ∃ (r : Fin 100000) (c : Fin 32), i = ix2 r c := ⟨i 0, i 1, eq_ix2 i⟩
  rw [Cert.Layer.scaleShift_apply, Cert.RowReduce.shapeCast_a_a1_apply, shapeCast_a_1a_apply]
  unfold closing32
  rw [addf_apply]
  show Ideal.div (A (ix2 r c)) _ + _ = _
  rw [colRepeat_apply, rowRepeat_apply, maximumf_apply, splat_apply, constant_apply]

end Cert.ReferenceIdeal.Stage

end
-- ==== Proof.Bridge.lean ====
/-
  The kernel program's forward pass and the reference's are one function of the sixteen arguments.

  Both run the same host stages on the edges (the two programs spell them with the same operations, so those agree
  by unfolding); they differ only in how the dense steps are spelled. The reference's three matrix products are the
  plain matrix product, and its closing step, with the floored degree repeated along each row and the bias repeated
  down the rows, is the division of every row by its node's floored degree plus the bias: exactly what the kernel
  program's forward pass is built from.
-/
import proofs.«425108_j11218454577219_3_alg».proof.Proof.HostStages
import proofs.«425108_j11218454577219_3_alg».proof.Proof.RefStages
import proofs.«425108_j11218454577219_3_alg».proof.Proof.RefDense

noncomputable section

namespace Cert.Bridge

open Idealize.ShloMosaic

/-- The start-index columns agree. -/
theorem startCol_eq : @Cert.KernelIdeal.Stage.startCol = @Cert.ReferenceIdeal.Stage.startCol := rfl
/-- The weighted degrees agree. -/
theorem degree_eq : @Cert.KernelIdeal.Stage.degree = @Cert.ReferenceIdeal.Stage.degree := rfl
/-- The edge normalisations agree. -/
theorem edgeNorm_eq : @Cert.KernelIdeal.Stage.edgeNorm = @Cert.ReferenceIdeal.Stage.edgeNorm := rfl
/-- The 64-wide aggregations agree. -/
theorem aggregate64_eq : @Cert.KernelIdeal.Stage.aggregate64 = @Cert.ReferenceIdeal.Stage.aggregate64 := rfl
/-- The 32-wide aggregations agree. -/
theorem aggregate32_eq : @Cert.KernelIdeal.Stage.aggregate32 = @Cert.ReferenceIdeal.Stage.aggregate32 := rfl

open Cert.KernelIdeal in
/-- The two forward passes are one function. -/
theorem forward_eq (x : FVec Ideal S100000x128 .f32) (s1 e1 : IVec S1600000 32) (w1 : FVec Ideal S1600000 .f32)
    (s2 e2 : IVec S1600000 32) (w2 : FVec Ideal S1600000 .f32) (s3 e3 : IVec S1600000 32) (w3 : FVec Ideal S1600000 .f32)
    (W1 : FVec Ideal S128x64 .f32) (b1 : FVec Ideal S64 .f32) (W2 : FVec Ideal S64x32 .f32) (b2 : FVec Ideal S32 .f32)
    (W3 : FVec Ideal S32x32 .f32) (b3 : FVec Ideal S32 .f32) :
    Cert.KernelIdeal.Stage.forward x s1 e1 w1 s2 e2 w2 s3 e3 w3 W1 b1 W2 b2 W3 b3
      = Cert.ReferenceIdeal.Stage.forward x s1 e1 w1 s2 e2 w2 s3 e3 w3 W1 b1 W2 b2 W3 b3 := by
  unfold Cert.ReferenceIdeal.Stage.forward
  simp only [Cert.ReferenceIdeal.Stage.dot1_eq, Cert.ReferenceIdeal.Stage.dot2_eq, Cert.ReferenceIdeal.Stage.dot3_eq,
    Cert.ReferenceIdeal.Stage.closing64_eq _ _ _ Cert.KernelIdeal.Facts₀.shapeCasts_S100000_S100000x1
      Cert.KernelIdeal.Facts₀.shapeCasts_S64_S1x64,
    Cert.ReferenceIdeal.Stage.closing32_eq _ _ _ Cert.KernelIdeal.Facts₀.shapeCasts_S100000_S100000x1
      Cert.KernelIdeal.Facts₀.shapeCasts_S32_S1x32]
  unfold Cert.KernelIdeal.Stage.forward Cert.KernelIdeal.Stage.layer3 Cert.KernelIdeal.Stage.layer2
    Cert.KernelIdeal.Stage.layer1 Cert.KernelIdeal.Stage.column Cert.KernelIdeal.Stage.row64 Cert.KernelIdeal.Stage.row32
  rw [edgeNorm_eq, degree_eq, aggregate64_eq, aggregate32_eq]

end Cert.Bridge

end
-- ==== Proof.lean ====
/-
  A three-layer graph convolution on 100000 nodes with three edge sets of 1600000 weighted edges: the program whose
  dense steps run as five tiled kernels computes, over the extended reals, the same result array as the plain
  reference.

  Per edge set both programs normalise the edge weights symmetrically by the endpoints' weighted degrees. A layer
  multiplies the node features by its weight matrix, sums along every edge the source's row scaled by the edge's
  normalised weight into the destination, divides every node's row by its weighted in-degree (floored at the
  single-precision word of 1e-12) and adds the bias; the third layer aggregates before it multiplies. The gathers and
  scatter-sums are the same host operations in both programs. The kernels differ from the reference in two ways that
  do not change an extended real: the products round their operands to half width first, and are computed block of
  rows by block of rows, each block depending only on its own rows (`Transform1`, `Transform2`, `Fused3`); the
  closing step takes the degree as a column and the bias as a row instead of repeating them along the other axis
  (`Closing1`, `Closing2`, `RefDense`). `KernelValue` reads the kernel program's result off its run as the forward
  pass of the arguments, `RefValue` does the same for the reference, and `Bridge` shows the two forward passes are
  one function. No law of arithmetic that fails at an infinity is used, so the inputs' finiteness is not needed.
-/
import proofs.«425108_j11218454577219_3_alg».proof.Defs
import proofs.«425108_j11218454577219_3_alg».proof.Proof.Gen.Kernel
import proofs.«425108_j11218454577219_3_alg».proof.Proof.Gen.Kernel.Frame
import proofs.«425108_j11218454577219_3_alg».proof.Proof.Gen.KernelIdeal
import proofs.«425108_j11218454577219_3_alg».proof.Proof.Gen.KernelIdeal.Frame
import proofs.«425108_j11218454577219_3_alg».proof.Proof.Gen.ReferenceIdeal
import proofs.«425108_j11218454577219_3_alg».proof.Proof.Gen.Pre_finite_inputs
import proofs.«425108_j11218454577219_3_alg».proof.Proof.KernelRun
import proofs.«425108_j11218454577219_3_alg».proof.Proof.KernelValue
import proofs.«425108_j11218454577219_3_alg».proof.Proof.RefValue
import proofs.«425108_j11218454577219_3_alg».proof.Proof.Bridge
import Idealize.ShloMosaic.Adequacy
import Idealize.ShloMosaic.Init

noncomputable section

namespace Cert.Proof

open Idealize.ShloMosaic Idealize.SL.Sem

/-- The word-level program runs and leaves its arguments unchanged. -/
theorem frame_kernel : Cert.frame_Kernel := fun m ρ _ => Cert.Kernel.Gen.frame m ρ

/-- So does the program read over the extended reals. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.RefValue.run_forward m ρ)

/-- Nothing was rewritten on the way to the extended reals. -/
theorem preserves : Cert.preserves_Kernel_KernelIdeal := trivial

/-- From memories agreeing on the arguments both programs end with the forward pass of those arguments in their result
    arrays. -/
theorem algebraic : Cert.algebraic_KernelIdeal_ReferenceIdeal := by
  intro m ρ m' ρ' _ hagree
  refine ⟨fun c => Cert.KernelIdeal.Stage.forward (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.OutValue.out_value m ρ c), (h c).2⟩)
      (Cert.KernelIdeal.OutRun.run_out m ρ)
  · refine (θ_run Cert.ReferenceIdeal.defs _ _).mono (fun r h c => ⟨(h c).1.trans ?_, (h c).2⟩)
      (Cert.ReferenceIdeal.RefValue.run_forward m' ρ')
    obtain ⟨h0, h1, h2, h3, h4, h5, h6, h7, h8, h9, h10, h11, h12, h13, h14, h15⟩ := hagree c
    rw [h0, h1, h2, h3, h4, h5, h6, h7, h8, h9, h10, h11, h12, h13, h14, h15]
    exact (Cert.Bridge.forward_eq _ _ _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
